-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x16 : Shape := ⟨2, ![262144, 16]⟩
abbrev S969x16 : Shape := ⟨2, ![969, 16]⟩
abbrev S_ : Shape := ⟨0, ![]⟩

class Facts : Prop where
  bcast_S_S262144x16 : S_.BroadcastsInDim S262144x16 (![] : Fin 0 → Fin S262144x16.rank)
  reducesTo_S262144x16_S_d0_1 : S262144x16.ReducesTo [0, 1] S_
  h_S_ : 0 < S_.numel
  bcast_S_S969x16 : S_.BroadcastsInDim S969x16 (![] : Fin 0 → Fin S969x16.rank)
  reducesTo_S969x16_S_d0_1 : S969x16.ReducesTo [0, 1] S_

variable [Facts]

def fn {F : FTy → Type} [FloatOps F] (main_arg0 : FVec F S262144x16 .f32) (main_arg1 : FVec F S969x16 .f32) : IVec S_ 1 :=
  let main_v0 : FVec F S262144x16 .f32 := Host.absf main_arg0
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_c : IVec S_ 1 := constantI S_ 1 1#1
  let main_v3 : IVec S_ 1 := (fun x v => Host.reduce IntOp.andi x v reducesTo_S262144x16_S_d0_1 h_S_) main_v2 main_c
  let main_v4 : FVec F S969x16 .f32 := Host.absf main_arg1
  let main_cst_0 : FVec F S_ .f32 := constant S_ .f32 0x7F800000#32
  let main_v5 : FVec F S969x16 .f32 := broadcastInDim S969x16 ![] bcast_S_S969x16 main_cst_0
  let main_v6 : IVec S969x16 1 := cmpf .olt main_v4 main_v5
  let main_c_1 : IVec S_ 1 := constantI S_ 1 1#1
  let main_v7 : IVec S_ 1 := (fun x v => Host.reduce IntOp.andi x v reducesTo_S969x16_S_d0_1 h_S_) main_v6 main_c_1
  let main_v8 : IVec S_ 1 := andi main_v3 main_v7
  main_v8
-- ==== Kernel.lean ====
abbrev S262144x16 : Shape := ⟨2, ![262144, 16]⟩
abbrev S969x16 : Shape := ⟨2, ![969, 16]⟩
abbrev S2048x16 : Shape := ⟨2, ![2048, 16]⟩
abbrev S2048x1 : Shape := ⟨2, ![2048, 1]⟩
abbrev S2048x2 : Shape := ⟨2, ![2048, 2]⟩
abbrev S2048x3 : Shape := ⟨2, ![2048, 3]⟩
abbrev S2048x4 : Shape := ⟨2, ![2048, 4]⟩
abbrev S2048x5 : Shape := ⟨2, ![2048, 5]⟩
abbrev S2048x6 : Shape := ⟨2, ![2048, 6]⟩
abbrev S2048x7 : Shape := ⟨2, ![2048, 7]⟩
abbrev S2048x8 : Shape := ⟨2, ![2048, 8]⟩
abbrev S2048x9 : Shape := ⟨2, ![2048, 9]⟩
abbrev S2048x10 : Shape := ⟨2, ![2048, 10]⟩
abbrev S2048x11 : Shape := ⟨2, ![2048, 11]⟩
abbrev S2048x12 : Shape := ⟨2, ![2048, 12]⟩
abbrev S2048x13 : Shape := ⟨2, ![2048, 13]⟩
abbrev S2048x14 : Shape := ⟨2, ![2048, 14]⟩
abbrev S2048x15 : Shape := ⟨2, ![2048, 15]⟩
abbrev S2048x136 : Shape := ⟨2, ![2048, 136]⟩
abbrev S2048x21 : Shape := ⟨2, ![2048, 21]⟩
abbrev S2048x28 : Shape := ⟨2, ![2048, 28]⟩
abbrev S2048x36 : Shape := ⟨2, ![2048, 36]⟩
abbrev S2048x45 : Shape := ⟨2, ![2048, 45]⟩
abbrev S2048x55 : Shape := ⟨2, ![2048, 55]⟩
abbrev S2048x66 : Shape := ⟨2, ![2048, 66]⟩
abbrev S2048x78 : Shape := ⟨2, ![2048, 78]⟩
abbrev S2048x91 : Shape := ⟨2, ![2048, 91]⟩
abbrev S2048x105 : Shape := ⟨2, ![2048, 105]⟩
abbrev S2048x120 : Shape := ⟨2, ![2048, 120]⟩
abbrev S2048x816 : Shape := ⟨2, ![2048, 816]⟩
abbrev S2048x969 : Shape := ⟨2, ![2048, 969]⟩

abbrev nBuf : Space → Nat
  | .hbm => 3
  | .vmem => 5
  | .smem => 0
  | _ => 0

abbrev bufTy : (tb : Table) → Fin (tcTables nBuf tb) → BufTy
  | .hbm, ⟨0, _⟩ => ⟨S262144x16, .f32⟩
  | .hbm, ⟨1, _⟩ => ⟨S969x16, .f32⟩
  | .hbm, ⟨2, _⟩ => ⟨S262144x16, .f32⟩
  | .local _ .vmem, ⟨0, _⟩ => ⟨S2048x16, .f32⟩
  | .local _ .vmem, ⟨1, _⟩ => ⟨S2048x16, .f32⟩
  | .local _ .vmem, ⟨2, _⟩ => ⟨S969x16, .f32⟩
  | .local _ .vmem, ⟨3, _⟩ => ⟨S2048x16, .f32⟩
  | .local _ .vmem, ⟨4, _⟩ => ⟨S2048x16, .f32⟩
  | _, _ => ⟨S262144x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S969x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x16_S2048x16_0_0 : ∀ a, (![0, 0] : Fin 2 → Nat) a + S2048x16.size a ≤ S2048x16.size a
  h_S2048x16 : 0 < S2048x16.numel
  slices_S2048x16_o0_0_S2048x1 : S2048x16.Slices ![0, 0] S2048x1
  slices_S2048x16_o0_1_S2048x1 : S2048x16.Slices ![0, 1] S2048x1
  slices_S2048x16_o0_0_S2048x2 : S2048x16.Slices ![0, 0] S2048x2
  broadcasts_S2048x1_S2048x2 : S2048x1.Broadcasts S2048x2
  slices_S2048x16_o0_2_S2048x1 : S2048x16.Slices ![0, 2] S2048x1
  slices_S2048x16_o0_0_S2048x3 : S2048x16.Slices ![0, 0] S2048x3
  broadcasts_S2048x1_S2048x3 : S2048x1.Broadcasts S2048x3
  slices_S2048x16_o0_3_S2048x1 : S2048x16.Slices ![0, 3] S2048x1
  slices_S2048x16_o0_0_S2048x4 : S2048x16.Slices ![0, 0] S2048x4
  broadcasts_S2048x1_S2048x4 : S2048x1.Broadcasts S2048x4
  slices_S2048x16_o0_4_S2048x1 : S2048x16.Slices ![0, 4] S2048x1
  slices_S2048x16_o0_0_S2048x5 : S2048x16.Slices ![0, 0] S2048x5
  broadcasts_S2048x1_S2048x5 : S2048x1.Broadcasts S2048x5
  slices_S2048x16_o0_5_S2048x1 : S2048x16.Slices ![0, 5] S2048x1
  slices_S2048x16_o0_0_S2048x6 : S2048x16.Slices ![0, 0] S2048x6
  broadcasts_S2048x1_S2048x6 : S2048x1.Broadcasts S2048x6
  slices_S2048x16_o0_6_S2048x1 : S2048x16.Slices ![0, 6] S2048x1
  slices_S2048x16_o0_0_S2048x7 : S2048x16.Slices ![0, 0] S2048x7
  broadcasts_S2048x1_S2048x7 : S2048x1.Broadcasts S2048x7
  slices_S2048x16_o0_7_S2048x1 : S2048x16.Slices ![0, 7] S2048x1
  slices_S2048x16_o0_0_S2048x8 : S2048x16.Slices ![0, 0] S2048x8
  broadcasts_S2048x1_S2048x8 : S2048x1.Broadcasts S2048x8
  slices_S2048x16_o0_8_S2048x1 : S2048x16.Slices ![0, 8] S2048x1
  slices_S2048x16_o0_0_S2048x9 : S2048x16.Slices ![0, 0] S2048x9
  broadcasts_S2048x1_S2048x9 : S2048x1.Broadcasts S2048x9
  slices_S2048x16_o0_9_S2048x1 : S2048x16.Slices ![0, 9] S2048x1
  slices_S2048x16_o0_0_S2048x10 : S2048x16.Slices ![0, 0] S2048x10
  broadcasts_S2048x1_S2048x10 : S2048x1.Broadcasts S2048x10
  slices_S2048x16_o0_10_S2048x1 : S2048x16.Slices ![0, 10] S2048x1
  slices_S2048x16_o0_0_S2048x11 : S2048x16.Slices ![0, 0] S2048x11
  broadcasts_S2048x1_S2048x11 : S2048x1.Broadcasts S2048x11
  slices_S2048x16_o0_11_S2048x1 : S2048x16.Slices ![0, 11] S2048x1
  slices_S2048x16_o0_0_S2048x12 : S2048x16.Slices ![0, 0] S2048x12
  broadcasts_S2048x1_S2048x12 : S2048x1.Broadcasts S2048x12
  slices_S2048x16_o0_12_S2048x1 : S2048x16.Slices ![0, 12] S2048x1
  slices_S2048x16_o0_0_S2048x13 : S2048x16.Slices ![0, 0] S2048x13
  broadcasts_S2048x1_S2048x13 : S2048x1.Broadcasts S2048x13
  slices_S2048x16_o0_13_S2048x1 : S2048x16.Slices ![0, 13] S2048x1
  slices_S2048x16_o0_0_S2048x14 : S2048x16.Slices ![0, 0] S2048x14
  broadcasts_S2048x1_S2048x14 : S2048x1.Broadcasts S2048x14
  slices_S2048x16_o0_14_S2048x1 : S2048x16.Slices ![0, 14] S2048x1
  slices_S2048x16_o0_0_S2048x15 : S2048x16.Slices ![0, 0] S2048x15
  broadcasts_S2048x1_S2048x15 : S2048x1.Broadcasts S2048x15
  slices_S2048x16_o0_15_S2048x1 : S2048x16.Slices ![0, 15] S2048x1
  broadcasts_S2048x1_S2048x16 : S2048x1.Broadcasts S2048x16
  concatenates_S2048x1_S2048x2_S2048x3_S2048x4_S2048x5_S2048x6_S2048x7_S2048x8_S2048x9_S2048x10_S2048x11_S2048x12_S2048x13_S2048x14_S2048x15_S2048x16_S2048x136_d1 : Shape.Concatenates [S2048x1, S2048x2, S2048x3, S2048x4, S2048x5, S2048x6, S2048x7, S2048x8, S2048x9, S2048x10, S2048x11, S2048x12, S2048x13, S2048x14, S2048x15, S2048x16] S2048x136 1
  slices_S2048x136_o0_0_S2048x1 : S2048x136.Slices ![0, 0] S2048x1
  slices_S2048x136_o0_0_S2048x3 : S2048x136.Slices ![0, 0] S2048x3
  slices_S2048x136_o0_0_S2048x6 : S2048x136.Slices ![0, 0] S2048x6
  slices_S2048x136_o0_0_S2048x10 : S2048x136.Slices ![0, 0] S2048x10
  slices_S2048x136_o0_0_S2048x15 : S2048x136.Slices ![0, 0] S2048x15
  slices_S2048x136_o0_0_S2048x21 : S2048x136.Slices ![0, 0] S2048x21
  broadcasts_S2048x1_S2048x21 : S2048x1.Broadcasts S2048x21
  slices_S2048x136_o0_0_S2048x28 : S2048x136.Slices ![0, 0] S2048x28
  broadcasts_S2048x1_S2048x28 : S2048x1.Broadcasts S2048x28
  slices_S2048x136_o0_0_S2048x36 : S2048x136.Slices ![0, 0] S2048x36
  broadcasts_S2048x1_S2048x36 : S2048x1.Broadcasts S2048x36
  slices_S2048x136_o0_0_S2048x45 : S2048x136.Slices ![0, 0] S2048x45
  broadcasts_S2048x1_S2048x45 : S2048x1.Broadcasts S2048x45
  slices_S2048x136_o0_0_S2048x55 : S2048x136.Slices ![0, 0] S2048x55
  broadcasts_S2048x1_S2048x55 : S2048x1.Broadcasts S2048x55
  slices_S2048x136_o0_0_S2048x66 : S2048x136.Slices ![0, 0] S2048x66
  broadcasts_S2048x1_S2048x66 : S2048x1.Broadcasts S2048x66
  slices_S2048x136_o0_0_S2048x78 : S2048x136.Slices ![0, 0] S2048x78
  broadcasts_S2048x1_S2048x78 : S2048x1.Broadcasts S2048x78
  slices_S2048x136_o0_0_S2048x91 : S2048x136.Slices ![0, 0] S2048x91
  broadcasts_S2048x1_S2048x91 : S2048x1.Broadcasts S2048x91
  slices_S2048x136_o0_0_S2048x105 : S2048x136.Slices ![0, 0] S2048x105
  broadcasts_S2048x1_S2048x105 : S2048x1.Broadcasts S2048x105
  slices_S2048x136_o0_0_S2048x120 : S2048x136.Slices ![0, 0] S2048x120
  broadcasts_S2048x1_S2048x120 : S2048x1.Broadcasts S2048x120
  broadcasts_S2048x1_S2048x136 : S2048x1.Broadcasts S2048x136
  concatenates_S2048x1_S2048x3_S2048x6_S2048x10_S2048x15_S2048x21_S2048x28_S2048x36_S2048x45_S2048x55_S2048x66_S2048x78_S2048x91_S2048x105_S2048x120_S2048x136_S2048x816_d1 : Shape.Concatenates [S2048x1, S2048x3, S2048x6, S2048x10, S2048x15, S2048x21, S2048x28, S2048x36, S2048x45, S2048x55, S2048x66, S2048x78, S2048x91, S2048x105, S2048x120, S2048x136] S2048x816 1
  concatenates_S2048x1_S2048x16_S2048x136_S2048x816_S2048x969_d1 : Shape.Concatenates [S2048x1, S2048x16, S2048x136, S2048x816] S2048x969 1
  inb_S969x16_S969x16_0_0 : ∀ a, (![0, 0] : Fin 2 → Nat) a + S969x16.size a ≤ S969x16.size a
  h_S969x16 : 0 < S969x16.numel
  dot_S2048x969_S969x16_S2048x16_1_0_0_1_n_n_wf : DotDims.WF S2048x969 S969x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S262144x16.size a
  hwx0_0 : ∀ i : grid0.Coords, EltTy.bits .f32 = 32 ∨ (Rect.block (s := S262144x16) S2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S969x16.size a ≤ S969x16.size a
  hwx0_1 : ∀ i : grid0.Coords, EltTy.bits .f32 = 32 ∨ (Rect.block (s := S969x16) S969x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S262144x16.size a
  hwx0_2 : ∀ i : grid0.Coords, EltTy.bits .f32 = 32 ∨ (Rect.block (s := S262144x16) S2048x16.size (cc0_transform_2 i) (hinb0_2 i)).WholeWords (EltTy.packing .f32)

variable [Facts₀]

def dot_S2048x969_S969x16_S2048x16_1_0_0_1_n_n : DotDims S2048x969 S969x16 S2048x16 where
  lhsContracting := [1]
  rhsContracting := [0]
  lhsNonContracting := [0]
  rhsNonContracting := [1]
  lhsBatch := []
  rhsBatch := []
  wf := dot_S2048x969_S969x16_S2048x16_1_0_0_1_n_n_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S969x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x16 : Shape := ⟨2, ![262144, 16]⟩
abbrev S969x16 : Shape := ⟨2, ![969, 16]⟩
abbrev S_ : Shape := ⟨0, ![]⟩
abbrev S262144x1 : Shape := ⟨2, ![262144, 1]⟩
abbrev S262144x2 : Shape := ⟨2, ![262144, 2]⟩
abbrev S262144x3 : Shape := ⟨2, ![262144, 3]⟩
abbrev S262144x4 : Shape := ⟨2, ![262144, 4]⟩
abbrev S262144x5 : Shape := ⟨2, ![262144, 5]⟩
abbrev S262144x6 : Shape := ⟨2, ![262144, 6]⟩
abbrev S262144x7 : Shape := ⟨2, ![262144, 7]⟩
abbrev S262144x8 : Shape := ⟨2, ![262144, 8]⟩
abbrev S262144x9 : Shape := ⟨2, ![262144, 9]⟩
abbrev S262144x10 : Shape := ⟨2, ![262144, 10]⟩
abbrev S262144x11 : Shape := ⟨2, ![262144, 11]⟩
abbrev S262144x12 : Shape := ⟨2, ![262144, 12]⟩
abbrev S262144x13 : Shape := ⟨2, ![262144, 13]⟩
abbrev S262144x14 : Shape := ⟨2, ![262144, 14]⟩
abbrev S262144x15 : Shape := ⟨2, ![262144, 15]⟩
abbrev S262144x136 : Shape := ⟨2, ![262144, 136]⟩
abbrev S262144x21 : Shape := ⟨2, ![262144, 21]⟩
abbrev S262144x28 : Shape := ⟨2, ![262144, 28]⟩
abbrev S262144x36 : Shape := ⟨2, ![262144, 36]⟩
abbrev S262144x45 : Shape := ⟨2, ![262144, 45]⟩
abbrev S262144x55 : Shape := ⟨2, ![262144, 55]⟩
abbrev S262144x66 : Shape := ⟨2, ![262144, 66]⟩
abbrev S262144x78 : Shape := ⟨2, ![262144, 78]⟩
abbrev S262144x91 : Shape := ⟨2, ![262144, 91]⟩
abbrev S262144x105 : Shape := ⟨2, ![262144, 105]⟩
abbrev S262144x120 : Shape := ⟨2, ![262144, 120]⟩
abbrev S262144x816 : Shape := ⟨2, ![262144, 816]⟩
abbrev S262144x969 : Shape := ⟨2, ![262144, 969]⟩

abbrev nBuf : Space → Nat
  | .hbm => 133
  | .vmem => 0
  | .smem => 0
  | _ => 0

abbrev hbmTy0_0 (i : Nat) : BufTy := match i % 128 with
  | 0 => ⟨S262144x16, .f32⟩
  | 1 => ⟨S969x16, .f32⟩
  | 2 => ⟨S_, .f32⟩
  | 3 => ⟨S262144x1, .f32⟩
  | 4 => ⟨S262144x1, .f32⟩
  | 5 => ⟨S262144x1, .f32⟩
  | 6 => ⟨S262144x1, .f32⟩
  | 7 => ⟨S262144x1, .f32⟩
  | 8 => ⟨S262144x2, .f32⟩
  | 9 => ⟨S262144x2, .f32⟩
  | 10 => ⟨S262144x2, .f32⟩
  | 11 => ⟨S262144x1, .f32⟩
  | 12 => ⟨S262144x3, .f32⟩
  | 13 => ⟨S262144x3, .f32⟩
  | 14 => ⟨S262144x3, .f32⟩
  | 15 => ⟨S262144x1, .f32⟩
  | 16 => ⟨S262144x4, .f32⟩
  | 17 => ⟨S262144x4, .f32⟩
  | 18 => ⟨S262144x4, .f32⟩
  | 19 => ⟨S262144x1, .f32⟩
  | 20 => ⟨S262144x5, .f32⟩
  | 21 => ⟨S262144x5, .f32⟩
  | 22 => ⟨S262144x5, .f32⟩
  | 23 => ⟨S262144x1, .f32⟩
  | 24 => ⟨S262144x6, .f32⟩
  | 25 => ⟨S262144x6, .f32⟩
  | 26 => ⟨S262144x6, .f32⟩
  | 27 => ⟨S262144x1, .f32⟩
  | 28 => ⟨S262144x7, .f32⟩
  | 29 => ⟨S262144x7, .f32⟩
  | 30 => ⟨S262144x7, .f32⟩
  | 31 => ⟨S262144x1, .f32⟩
  | 32 => ⟨S262144x8, .f32⟩
  | 33 => ⟨S262144x8, .f32⟩
  | 34 => ⟨S262144x8, .f32⟩
  | 35 => ⟨S262144x1, .f32⟩
  | 36 => ⟨S262144x9, .f32⟩
  | 37 => ⟨S262144x9, .f32⟩
  | 38 => ⟨S262144x9, .f32⟩
  | 39 => ⟨S262144x1, .f32⟩
  | 40 => ⟨S262144x10, .f32⟩
  | 41 => ⟨S262144x10, .f32⟩
  | 42 => ⟨S262144x10, .f32⟩
  | 43 => ⟨S262144x1, .f32⟩
  | 44 => ⟨S262144x11, .f32⟩
  | 45 => ⟨S262144x11, .f32⟩
  | 46 => ⟨S262144x11, .f32⟩
  | 47 => ⟨S262144x1, .f32⟩
  | 48 => ⟨S262144x12, .f32⟩
  | 49 => ⟨S262144x12, .f32⟩
  | 50 => ⟨S262144x12, .f32⟩
  | 51 => ⟨S262144x1, .f32⟩
  | 52 => ⟨S262144x13, .f32⟩
  | 53 => ⟨S262144x13, .f32⟩
  | 54 => ⟨S262144x13, .f32⟩
  | 55 => ⟨S262144x1, .f32⟩
  | 56 => ⟨S262144x14, .f32⟩
  | 57 => ⟨S262144x14, .f32⟩
  | 58 => ⟨S262144x14, .f32⟩
  | 59 => ⟨S262144x1, .f32⟩
  | 60 => ⟨S262144x15, .f32⟩
  | 61 => ⟨S262144x15, .f32⟩
  | 62 => ⟨S262144x15, .f32⟩
  | 63 => ⟨S262144x1, .f32⟩
  | 64 => ⟨S262144x16, .f32⟩
  | 65 => ⟨S262144x16, .f32⟩
  | 66 => ⟨S262144x136, .f32⟩
  | 67 => ⟨S262144x1, .f32⟩
  | 68 => ⟨S262144x1, .f32⟩
  | 69 => ⟨S262144x1, .f32⟩
  | 70 => ⟨S262144x1, .f32⟩
  | 71 => ⟨S262144x3, .f32⟩
  | 72 => ⟨S262144x3, .f32⟩
  | 73 => ⟨S262144x3, .f32⟩
  | 74 => ⟨S262144x1, .f32⟩
  | 75 => ⟨S262144x6, .f32⟩
  | 76 => ⟨S262144x6, .f32⟩
  | 77 => ⟨S262144x6, .f32⟩
  | 78 => ⟨S262144x1, .f32⟩
  | 79 => ⟨S262144x10, .f32⟩
  | 80 => ⟨S262144x10, .f32⟩
  | 81 => ⟨S262144x10, .f32⟩
  | 82 => ⟨S262144x1, .f32⟩
  | 83 => ⟨S262144x15, .f32⟩
  | 84 => ⟨S262144x15, .f32⟩
  | 85 => ⟨S262144x15, .f32⟩
  | 86 => ⟨S262144x1, .f32⟩
  | 87 => ⟨S262144x21, .f32⟩
  | 88 => ⟨S262144x21, .f32⟩
  | 89 => ⟨S262144x21, .f32⟩
  | 90 => ⟨S262144x1, .f32⟩
  | 91 => ⟨S262144x28, .f32⟩
  | 92 => ⟨S262144x28, .f32⟩
  | 93 => ⟨S262144x28, .f32⟩
  | 94 => ⟨S262144x1, .f32⟩
  | 95 => ⟨S262144x36, .f32⟩
  | 96 => ⟨S262144x36, .f32⟩
  | 97 => ⟨S262144x36, .f32⟩
  | 98 => ⟨S262144x1, .f32⟩
  | 99 => ⟨S262144x45, .f32⟩
  | 100 => ⟨S262144x45, .f32⟩
  | 101 => ⟨S262144x45, .f32⟩
  | 102 => ⟨S262144x1, .f32⟩
  | 103 => ⟨S262144x55, .f32⟩
  | 104 => ⟨S262144x55, .f32⟩
  | 105 => ⟨S262144x55, .f32⟩
  | 106 => ⟨S262144x1, .f32⟩
  | 107 => ⟨S262144x66, .f32⟩
  | 108 => ⟨S262144x66, .f32⟩
  | 109 => ⟨S262144x66, .f32⟩
  | 110 => ⟨S262144x1, .f32⟩
  | 111 => ⟨S262144x78, .f32⟩
  | 112 => ⟨S262144x78, .f32⟩
  | 113 => ⟨S262144x78, .f32⟩
  | 114 => ⟨S262144x1, .f32⟩
  | 115 => ⟨S262144x91, .f32⟩
  | 116 => ⟨S262144x91, .f32⟩
  | 117 => ⟨S262144x91, .f32⟩
  | 118 => ⟨S262144x1, .f32⟩
  | 119 => ⟨S262144x105, .f32⟩
  | 120 => ⟨S262144x105, .f32⟩
  | 121 => ⟨S262144x105, .f32⟩
  | 122 => ⟨S262144x1, .f32⟩
  | 123 => ⟨S262144x120, .f32⟩
  | 124 => ⟨S262144x120, .f32⟩
  | 125 => ⟨S262144x120, .f32⟩
  | 126 => ⟨S262144x1, .f32⟩
  | 127 => ⟨S262144x136, .f32⟩
  | _ => ⟨S262144x16, .f32⟩

abbrev hbmTy0_1 (i : Nat) : BufTy := match i % 128 with
  | 0 => ⟨S262144x136, .f32⟩
  | 1 => ⟨S262144x816, .f32⟩
  | 2 => ⟨S262144x969, .f32⟩
  | 3 => ⟨S262144x16, .f32⟩
  | 4 => ⟨S262144x16, .f32⟩
  | _ => ⟨S262144x16, .f32⟩

abbrev hbmTy (i : Nat) : BufTy := match i / 128 with
  | 0 => hbmTy0_0 i
  | 1 => hbmTy0_1 i
  | _ => ⟨S262144x16, .f32⟩

abbrev bufTy : (tb : Table) → Fin (tcTables nBuf tb) → BufTy
  | .hbm, ⟨i, _⟩ => hbmTy i
  | _, _ => ⟨S262144x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩
abbrev main_v59 : Ref sig .tc := ⟨.hbm, 62, rfl⟩
abbrev main_v60 : Ref sig .tc := ⟨.hbm, 63, rfl⟩
abbrev main_v61 : Ref sig .tc := ⟨.hbm, 64, rfl⟩
abbrev main_v62 : Ref sig .tc := ⟨.hbm, 65, rfl⟩
abbrev main_v63 : Ref sig .tc := ⟨.hbm, 66, rfl⟩
abbrev main_v64 : Ref sig .tc := ⟨.hbm, 67, rfl⟩
abbrev main_v65 : Ref sig .tc := ⟨.hbm, 68, rfl⟩
abbrev main_v66 : Ref sig .tc := ⟨.hbm, 69, rfl⟩
abbrev main_v67 : Ref sig .tc := ⟨.hbm, 70, rfl⟩
abbrev main_v68 : Ref sig .tc := ⟨.hbm, 71, rfl⟩
abbrev main_v69 : Ref sig .tc := ⟨.hbm, 72, rfl⟩
abbrev main_v70 : Ref sig .tc := ⟨.hbm, 73, rfl⟩
abbrev main_v71 : Ref sig .tc := ⟨.hbm, 74, rfl⟩
abbrev main_v72 : Ref sig .tc := ⟨.hbm, 75, rfl⟩
abbrev main_v73 : Ref sig .tc := ⟨.hbm, 76, rfl⟩
abbrev main_v74 : Ref sig .tc := ⟨.hbm, 77, rfl⟩
abbrev main_v75 : Ref sig .tc := ⟨.hbm, 78, rfl⟩
abbrev main_v76 : Ref sig .tc := ⟨.hbm, 79, rfl⟩
abbrev main_v77 : Ref sig .tc := ⟨.hbm, 80, rfl⟩
abbrev main_v78 : Ref sig .tc := ⟨.hbm, 81, rfl⟩
abbrev main_v79 : Ref sig .tc := ⟨.hbm, 82, rfl⟩
abbrev main_v80 : Ref sig .tc := ⟨.hbm, 83, rfl⟩
abbrev main_v81 : Ref sig .tc := ⟨.hbm, 84, rfl⟩
abbrev main_v82 : Ref sig .tc := ⟨.hbm, 85, rfl⟩
abbrev main_v83 : Ref sig .tc := ⟨.hbm, 86, rfl⟩
abbrev main_v84 : Ref sig .tc := ⟨.hbm, 87, rfl⟩
abbrev main_v85 : Ref sig .tc := ⟨.hbm, 88, rfl⟩
abbrev main_v86 : Ref sig .tc := ⟨.hbm, 89, rfl⟩
abbrev main_v87 : Ref sig .tc := ⟨.hbm, 90, rfl⟩
abbrev main_v88 : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_v93 : Ref sig .tc := ⟨.hbm, 96, rfl⟩
abbrev main_v94 : Ref sig .tc := ⟨.hbm, 97, rfl⟩
abbrev main_v95 : Ref sig .tc := ⟨.hbm, 98, rfl⟩
abbrev main_v96 : Ref sig .tc := ⟨.hbm, 99, rfl⟩
abbrev main_v97 : Ref sig .tc := ⟨.hbm, 100, rfl⟩
abbrev main_v98 : Ref sig .tc := ⟨.hbm, 101, rfl⟩
abbrev main_v99 : Ref sig .tc := ⟨.hbm, 102, rfl⟩
abbrev main_v100 : Ref sig .tc := ⟨.hbm, 103, rfl⟩
abbrev main_v101 : Ref sig .tc := ⟨.hbm, 104, rfl⟩
abbrev main_v102 : Ref sig .tc := ⟨.hbm, 105, rfl⟩
abbrev main_v103 : Ref sig .tc := ⟨.hbm, 106, rfl⟩
abbrev main_v104 : Ref sig .tc := ⟨.hbm, 107, rfl⟩
abbrev main_v105 : Ref sig .tc := ⟨.hbm, 108, rfl⟩
abbrev main_v106 : Ref sig .tc := ⟨.hbm, 109, rfl⟩
abbrev main_v107 : Ref sig .tc := ⟨.hbm, 110, rfl⟩
abbrev main_v108 : Ref sig .tc := ⟨.hbm, 111, rfl⟩
abbrev main_v109 : Ref sig .tc := ⟨.hbm, 112, rfl⟩
abbrev main_v110 : Ref sig .tc := ⟨.hbm, 113, rfl⟩
abbrev main_v111 : Ref sig .tc := ⟨.hbm, 114, rfl⟩
abbrev main_v112 : Ref sig .tc := ⟨.hbm, 115, rfl⟩
abbrev main_v113 : Ref sig .tc := ⟨.hbm, 116, rfl⟩
abbrev main_v114 : Ref sig .tc := ⟨.hbm, 117, rfl⟩
abbrev main_v115 : Ref sig .tc := ⟨.hbm, 118, rfl⟩
abbrev main_v116 : Ref sig .tc := ⟨.hbm, 119, rfl⟩
abbrev main_v117 : Ref sig .tc := ⟨.hbm, 120, rfl⟩
abbrev main_v118 : Ref sig .tc := ⟨.hbm, 121, rfl⟩
abbrev main_v119 : Ref sig .tc := ⟨.hbm, 122, rfl⟩
abbrev main_v120 : Ref sig .tc := ⟨.hbm, 123, rfl⟩
abbrev main_v121 : Ref sig .tc := ⟨.hbm, 124, rfl⟩
abbrev main_v122 : Ref sig .tc := ⟨.hbm, 125, rfl⟩
abbrev main_v123 : Ref sig .tc := ⟨.hbm, 126, rfl⟩
abbrev main_v124 : Ref sig .tc := ⟨.hbm, 127, rfl⟩
abbrev main_v125 : Ref sig .tc := ⟨.hbm, 128, rfl⟩
abbrev main_v126 : Ref sig .tc := ⟨.hbm, 129, rfl⟩
abbrev main_v127 : Ref sig .tc := ⟨.hbm, 130, rfl⟩
abbrev main_v128 : Ref sig .tc := ⟨.hbm, 131, rfl⟩
abbrev main_v129 : Ref sig .tc := ⟨.hbm, 132, rfl⟩

abbrev nD : Nat := 1
abbrev τ : Topo := Topo.v7x

variable {F : FTy → Type} [FloatOps F]

class Facts₀ : Prop where
  bcast_S_S262144x1 : S_.BroadcastsInDim S262144x1 (![] : Fin 0 → Fin S262144x1.rank)
  slices_S262144x16_S262144x1_0_0 : S262144x16.Slices ![0, 0] S262144x1
  slices_S262144x16_S262144x1_0_1 : S262144x16.Slices ![0, 1] S262144x1
  slices_S262144x16_S262144x2_0_0 : S262144x16.Slices ![0, 0] S262144x2
  bcast_S262144x1_S262144x2_0_1 : S262144x1.BroadcastsInDim S262144x2 (![0, 1] : Fin 2 → Fin S262144x2.rank)
  slices_S262144x16_S262144x1_0_2 : S262144x16.Slices ![0, 2] S262144x1
  slices_S262144x16_S262144x3_0_0 : S262144x16.Slices ![0, 0] S262144x3
  bcast_S262144x1_S262144x3_0_1 : S262144x1.BroadcastsInDim S262144x3 (![0, 1] : Fin 2 → Fin S262144x3.rank)
  slices_S262144x16_S262144x1_0_3 : S262144x16.Slices ![0, 3] S262144x1
  slices_S262144x16_S262144x4_0_0 : S262144x16.Slices ![0, 0] S262144x4
  bcast_S262144x1_S262144x4_0_1 : S262144x1.BroadcastsInDim S262144x4 (![0, 1] : Fin 2 → Fin S262144x4.rank)
  slices_S262144x16_S262144x1_0_4 : S262144x16.Slices ![0, 4] S262144x1
  slices_S262144x16_S262144x5_0_0 : S262144x16.Slices ![0, 0] S262144x5
  bcast_S262144x1_S262144x5_0_1 : S262144x1.BroadcastsInDim S262144x5 (![0, 1] : Fin 2 → Fin S262144x5.rank)
  slices_S262144x16_S262144x1_0_5 : S262144x16.Slices ![0, 5] S262144x1
  slices_S262144x16_S262144x6_0_0 : S262144x16.Slices ![0, 0] S262144x6
  bcast_S262144x1_S262144x6_0_1 : S262144x1.BroadcastsInDim S262144x6 (![0, 1] : Fin 2 → Fin S262144x6.rank)
  slices_S262144x16_S262144x1_0_6 : S262144x16.Slices ![0, 6] S262144x1
  slices_S262144x16_S262144x7_0_0 : S262144x16.Slices ![0, 0] S262144x7
  bcast_S262144x1_S262144x7_0_1 : S262144x1.BroadcastsInDim S262144x7 (![0, 1] : Fin 2 → Fin S262144x7.rank)
  slices_S262144x16_S262144x1_0_7 : S262144x16.Slices ![0, 7] S262144x1
  slices_S262144x16_S262144x8_0_0 : S262144x16.Slices ![0, 0] S262144x8
  bcast_S262144x1_S262144x8_0_1 : S262144x1.BroadcastsInDim S262144x8 (![0, 1] : Fin 2 → Fin S262144x8.rank)
  slices_S262144x16_S262144x1_0_8 : S262144x16.Slices ![0, 8] S262144x1
  slices_S262144x16_S262144x9_0_0 : S262144x16.Slices ![0, 0] S262144x9
  bcast_S262144x1_S262144x9_0_1 : S262144x1.BroadcastsInDim S262144x9 (![0, 1] : Fin 2 → Fin S262144x9.rank)
  slices_S262144x16_S262144x1_0_9 : S262144x16.Slices ![0, 9] S262144x1
  slices_S262144x16_S262144x10_0_0 : S262144x16.Slices ![0, 0] S262144x10
  bcast_S262144x1_S262144x10_0_1 : S262144x1.BroadcastsInDim S262144x10 (![0, 1] : Fin 2 → Fin S262144x10.rank)
  slices_S262144x16_S262144x1_0_10 : S262144x16.Slices ![0, 10] S262144x1
  slices_S262144x16_S262144x11_0_0 : S262144x16.Slices ![0, 0] S262144x11
  bcast_S262144x1_S262144x11_0_1 : S262144x1.BroadcastsInDim S262144x11 (![0, 1] : Fin 2 → Fin S262144x11.rank)
  slices_S262144x16_S262144x1_0_11 : S262144x16.Slices ![0, 11] S262144x1
  slices_S262144x16_S262144x12_0_0 : S262144x16.Slices ![0, 0] S262144x12
  bcast_S262144x1_S262144x12_0_1 : S262144x1.BroadcastsInDim S262144x12 (![0, 1] : Fin 2 → Fin S262144x12.rank)
  slices_S262144x16_S262144x1_0_12 : S262144x16.Slices ![0, 12] S262144x1
  slices_S262144x16_S262144x13_0_0 : S262144x16.Slices ![0, 0] S262144x13
  bcast_S262144x1_S262144x13_0_1 : S262144x1.BroadcastsInDim S262144x13 (![0, 1] : Fin 2 → Fin S262144x13.rank)
  slices_S262144x16_S262144x1_0_13 : S262144x16.Slices ![0, 13] S262144x1
  slices_S262144x16_S262144x14_0_0 : S262144x16.Slices ![0, 0] S262144x14
  bcast_S262144x1_S262144x14_0_1 : S262144x1.BroadcastsInDim S262144x14 (![0, 1] : Fin 2 → Fin S262144x14.rank)
  slices_S262144x16_S262144x1_0_14 : S262144x16.Slices ![0, 14] S262144x1
  slices_S262144x16_S262144x15_0_0 : S262144x16.Slices ![0, 0] S262144x15
  bcast_S262144x1_S262144x15_0_1 : S262144x1.BroadcastsInDim S262144x15 (![0, 1] : Fin 2 → Fin S262144x15.rank)
  slices_S262144x16_S262144x1_0_15 : S262144x16.Slices ![0, 15] S262144x1
  bcast_S262144x1_S262144x16_0_1 : S262144x1.BroadcastsInDim S262144x16 (![0, 1] : Fin 2 → Fin S262144x16.rank)
  concatenates_S262144x1_S262144x2_S262144x3_S262144x4_S262144x5_S262144x6_S262144x7_S262144x8_S262144x9_S262144x10_S262144x11_S262144x12_S262144x13_S262144x14_S262144x15_S262144x16_S262144x136_d1 : Shape.Concatenates [S262144x1, S262144x2, S262144x3, S262144x4, S262144x5, S262144x6, S262144x7, S262144x8, S262144x9, S262144x10, S262144x11, S262144x12, S262144x13, S262144x14, S262144x15, S262144x16] S262144x136 1
  slices_S262144x136_S262144x1_0_0 : S262144x136.Slices ![0, 0] S262144x1
  slices_S262144x136_S262144x3_0_0 : S262144x136.Slices ![0, 0] S262144x3
  slices_S262144x136_S262144x6_0_0 : S262144x136.Slices ![0, 0] S262144x6
  slices_S262144x136_S262144x10_0_0 : S262144x136.Slices ![0, 0] S262144x10
  slices_S262144x136_S262144x15_0_0 : S262144x136.Slices ![0, 0] S262144x15
  slices_S262144x136_S262144x21_0_0 : S262144x136.Slices ![0, 0] S262144x21
  bcast_S262144x1_S262144x21_0_1 : S262144x1.BroadcastsInDim S262144x21 (![0, 1] : Fin 2 → Fin S262144x21.rank)
  slices_S262144x136_S262144x28_0_0 : S262144x136.Slices ![0, 0] S262144x28
  bcast_S262144x1_S262144x28_0_1 : S262144x1.BroadcastsInDim S262144x28 (![0, 1] : Fin 2 → Fin S262144x28.rank)
  slices_S262144x136_S262144x36_0_0 : S262144x136.Slices ![0, 0] S262144x36
  bcast_S262144x1_S262144x36_0_1 : S262144x1.BroadcastsInDim S262144x36 (![0, 1] : Fin 2 → Fin S262144x36.rank)
  slices_S262144x136_S262144x45_0_0 : S262144x136.Slices ![0, 0] S262144x45
  bcast_S262144x1_S262144x45_0_1 : S262144x1.BroadcastsInDim S262144x45 (![0, 1] : Fin 2 → Fin S262144x45.rank)
  slices_S262144x136_S262144x55_0_0 : S262144x136.Slices ![0, 0] S262144x55
  bcast_S262144x1_S262144x55_0_1 : S262144x1.BroadcastsInDim S262144x55 (![0, 1] : Fin 2 → Fin S262144x55.rank)
  slices_S262144x136_S262144x66_0_0 : S262144x136.Slices ![0, 0] S262144x66
  bcast_S262144x1_S262144x66_0_1 : S262144x1.BroadcastsInDim S262144x66 (![0, 1] : Fin 2 → Fin S262144x66.rank)
  slices_S262144x136_S262144x78_0_0 : S262144x136.Slices ![0, 0] S262144x78
  bcast_S262144x1_S262144x78_0_1 : S262144x1.BroadcastsInDim S262144x78 (![0, 1] : Fin 2 → Fin S262144x78.rank)
  slices_S262144x136_S262144x91_0_0 : S262144x136.Slices ![0, 0] S262144x91
  bcast_S262144x1_S262144x91_0_1 : S262144x1.BroadcastsInDim S262144x91 (![0, 1] : Fin 2 → Fin S262144x91.rank)
  slices_S262144x136_S262144x105_0_0 : S262144x136.Slices ![0, 0] S262144x105
  bcast_S262144x1_S262144x105_0_1 : S262144x1.BroadcastsInDim S262144x105 (![0, 1] : Fin 2 → Fin S262144x105.rank)
  slices_S262144x136_S262144x120_0_0 : S262144x136.Slices ![0, 0] S262144x120
  bcast_S262144x1_S262144x120_0_1 : S262144x1.BroadcastsInDim S262144x120 (![0, 1] : Fin 2 → Fin S262144x120.rank)
  bcast_S262144x1_S262144x136_0_1 : S262144x1.BroadcastsInDim S262144x136 (![0, 1] : Fin 2 → Fin S262144x136.rank)
  concatenates_S262144x1_S262144x3_S262144x6_S262144x10_S262144x15_S262144x21_S262144x28_S262144x36_S262144x45_S262144x55_S262144x66_S262144x78_S262144x91_S262144x105_S262144x120_S262144x136_S262144x816_d1 : Shape.Concatenates [S262144x1, S262144x3, S262144x6, S262144x10, S262144x15, S262144x21, S262144x28, S262144x36, S262144x45, S262144x55, S262144x66, S262144x78, S262144x91, S262144x105, S262144x120, S262144x136] S262144x816 1
  concatenates_S262144x1_S262144x16_S262144x136_S262144x816_S262144x969_d1 : Shape.Concatenates [S262144x1, S262144x16, S262144x136, S262144x816] S262144x969 1
  dot_S262144x969_S969x16_S262144x16_1_0_0_1_n_n_wf : DotDims.WF S262144x969 S969x16 S262144x16 [1] [0] [0] [1] [] []

variable [Facts₀]

def dot_S262144x969_S969x16_S262144x16_1_0_0_1_n_n : DotDims S262144x969 S969x16 S262144x16 where
  lhsContracting := [1]
  rhsContracting := [0]
  lhsNonContracting := [0]
  rhsNonContracting := [1]
  lhsBatch := []
  rhsBatch := []
  wf := dot_S262144x969_S969x16_S262144x16_1_0_0_1_n_n_wf

class Facts : Prop extends Facts₀ where

variable [Facts]
-- ==== Proof.Cover.lean ====
/-
  From tiles to the array. The grid has 128 points; point t reads rows 2048 t, ..., 2048 t + 2047 of the input
  (all 16 columns), the whole of the weights, and writes the same rows of the output. The 128 row ranges tile the
  262144 rows, so if what each point writes is the restriction to its rows of ONE function G of the whole arrays,
  the output array ends as G.
-/
import proofs.«111983_j33603824124566_1_alg».proof.Proof.Gen.KernelIdeal.Value
import Idealize.ShloMosaic.Lib.Pipeline.Value
import Idealize.ShloMosaic.Lib.ValueIdx

noncomputable section

namespace Cert.Cover

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The block indices, decided over the 128 points: the input's and the output's block at point t is block
    (t, 0); the weights' is always block (0, 0). -/
theorem idx_facts : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The input tile at point t, and the weights as point t finds them. -/
abbrev xtile (c : Dev nD) (t : Fin cfg0.N) : Vec F S2048x16 .f32 := iblk m c 0 t
abbrev wtile (c : Dev nD) (t : Fin cfg0.N) : Vec F S969x16 .f32 := iblk m c 1 t

theorem row_lt (t : Fin cfg0.N) (p : Fin 2048) : t.val * 2048 + p.val < 262144 := by
  have ht : t.val < 128 := t.isLt
  have hp := p.isLt
  omega

/-- Row p of the tile at point t is row 2048 t + p of the input array. -/
theorem xtile_apply (c : Dev nD) (t : Fin cfg0.N) (p : Fin 2048) (i : Fin 16) :
    xtile m c t (ix2 p i) = V m c main_arg0 (ix2 ⟨t.val * 2048 + p.val, row_lt t p⟩ i) := by
  show V m c main_arg0 (((cfg0.win 0).blk t).view.emb (ix2 p i)) = _
  refine congrArg _ (funext fun a => Fin.ext ?_)
  obtain ⟨-, -, e00, e01, -, -⟩ := idx_facts t
  match a with
  | ⟨0, _⟩ => show win0_0.index t (0 : Fin 2) * 2048 + 1 * p.val = t.val * 2048 + p.val; rw [e00]; omega
  | ⟨1, _⟩ => show win0_0.index t (1 : Fin 2) * 16 + 1 * i.val = i.val; rw [e01]; omega

/-- Every point finds the whole of the weights. -/
theorem wtile_eq (c : Dev nD) (t : Fin cfg0.N) : wtile m c t = V m c main_arg1 := by
  funext j
  show V m c main_arg1 (((cfg0.win 1).blk t).view.emb j) = V m c main_arg1 j
  refine congrArg _ (funext fun a => Fin.ext ?_)
  obtain ⟨-, -, -, -, e10, e11⟩ := idx_facts t
  match a with
  | ⟨0, _⟩ => show win0_1.index t (0 : Fin 2) * 969 + 1 * (j 0).val = (j 0).val; rw [e10]; omega
  | ⟨1, _⟩ => show win0_1.index t (1 : Fin 2) * 16 + 1 * (j 1).val = (j 1).val; rw [e11]; omega

section whole
variable (G : Vec F S262144x16 .f32) (c : Dev nD)
variable (hG : ∀ (t : Fin cfg0.N) (p : Fin 2048) (q : Fin 16),
    out0_2 (xtile m c t) (wtile m c t) (ix2 p q) = G (ix2 ⟨t.val * 2048 + p.val, row_lt t p⟩ q))
include hG

/-- What point t writes back is G on its rows. -/
theorem flushed_eq_of (t : Fin cfg0.N) :
    (dats m 0 c).flushed 2 t = ((cfg0.win 2).blk t).view.read (Elt F) G := by
  rw [Value.flushed2]
  funext j
  have hp : (j 0).val < 2048 := (j 0).isLt
  have hq : (j 1).val < 16 := (j 1).isLt
  show out0_2 (xtile m c t) (wtile m c t) ((cfg0.win 2).xinj (grid0.coords t) j) = G (((cfg0.win 2).blk t).view.emb j)
  obtain ⟨e20, e21, -⟩ := idx_facts t
  have ej : (cfg0.win 2).xinj (grid0.coords t) j = ix2 (⟨(j 0).val, hp⟩ : Fin 2048) (⟨(j 1).val, hq⟩ : Fin 16) :=
    funext fun a => match a with | ⟨0, _⟩ => rfl | ⟨1, _⟩ => rfl
  have ee : ((cfg0.win 2).blk t).view.emb j
      = ix2 (⟨t.val * 2048 + (j 0).val, row_lt t ⟨(j 0).val, hp⟩⟩ : Fin 262144) (⟨(j 1).val, hq⟩ : Fin 16) := by
    funext a; apply Fin.ext
    match a with
    | ⟨0, _⟩ => show win0_2.index t (0 : Fin 2) * 2048 + 1 * (j 0).val = t.val * 2048 + (j 0).val; rw [e20]; omega
    | ⟨1, _⟩ => show win0_2.index t (1 : Fin 2) * 16 + 1 * (j 1).val = (j 1).val; rw [e21]; omega
  rw [ej, ee]
  exact hG t ⟨(j 0).val, hp⟩ ⟨(j 1).val, hq⟩

omit hG in
/-- An index of the array is in point t's block iff each coordinate is in the block's range on its axis. -/
theorem mem_blk (t : Fin cfg0.N) (i : S262144x16.Idx) :
    i ∈ ((cfg0.win 2).blk t).view.set ↔ ∀ a : Fin 2, win0_2.index t a * S2048x16.size a ≤ (i a).val
      ∧ (i a).val < win0_2.index t a * S2048x16.size a + S2048x16.size a := by
  show i ∈ ((View.whole main_v0).slice (win0_2.rect t)).set ↔ _
  rw [View.set_slice_whole, Rect.mem_set_unit]
  exact Iff.rfl

omit hG in
/-- Row R of the array is in the block of point R / 2048. -/
theorem covered (i : S262144x16.Idx) :
    ∃ t : Fin cfg0.N, (cfg0.win 2).flush t = true ∧ i ∈ ((cfg0.win 2).blk t).view.set := by
  have hi0 : (i 0).val < 262144 := (i 0).isLt
  have hi1 : (i 1).val < 16 := (i 1).isLt
  have ht : (i 0).val / 2048 < 128 := by omega
  refine ⟨⟨(i 0).val / 2048, ht⟩, flush0_2 _, ?_⟩
  rw [mem_blk]
  obtain ⟨e20, e21, -⟩ := idx_facts ⟨(i 0).val / 2048, ht⟩
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e20]; show (i 0).val / 2048 * 2048 ≤ (i 0).val ∧ (i 0).val < (i 0).val / 2048 * 2048 + 2048; omega
  | ⟨1, _⟩ =>
    show win0_2.index ⟨(i 0).val / 2048, ht⟩ (1 : Fin 2) * 16 ≤ (i 1).val
      ∧ (i 1).val < win0_2.index ⟨(i 0).val / 2048, ht⟩ (1 : Fin 2) * 16 + 16
    rw [e21]; omega

/-- The output array after the run is G. -/
theorem final_of : (dats m 0 c).arrAt 2 cfg0.N = G :=
  (dats m 0 c).arrAt_eq_of_cover 2 G (fun t _ => flushed_eq_of m G c hG t) covered

end whole

/-- The kernel's run with the output array named: G of the arguments, on every core, when every tile's result is
    G on the tile's rows. -/
theorem run_of (G : Dev nD → Vec F S262144x16 .f32)
    (hG : ∀ (c : Dev nD) (t : Fin cfg0.N) (p : Fin 2048) (q : Fin 16),
      out0_2 (xtile m c t) (wtile m c t) (ix2 p q) = G c (ix2 ⟨t.val * 2048 + p.val, row_lt t p⟩ q)) :
    θ_run defs (onTc (τ := τ) (main (F := F))) ⟨m, fun _ => 0, ρ⟩ fun r => ∀ c : Dev nD,
      r.2.mem ((c : Thread nD τ).loc main_v0) = G c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_of m (G c) c (hG c)), (h c).2⟩)
    (Value.run_blocks m ρ)

end Cert.Cover

end
-- ==== Proof.LibRowWise.lean ====
/-
  A general lemma file: equal rows through the operations that act row by row (reusable for any kernel that builds
  a row's features by slices, column broadcasts, entrywise products and concatenation along the column axis, at a
  tile's height on one side and the whole array's on the other).

  Row by row. Every operation from which both programs build their table of monomials acts on each row
  separately: a slice of columns, a column copied across a row, a product entry by entry, and pieces laid side by
  side. So the table's row depends on the matching row of the input alone, whatever the number of rows: this is
  what lets a tile of 2048 rows be compared with the whole array of 262144.

  RowRel r r' u u' says that row r of u and row r' of u' (arrays of the same width, of any heights) are
  equal, entry by entry. Each lemma below carries the relation through one operation.
-/
import Idealize.ShloMosaic.Lib.Pipeline.Value
import Idealize.ShloMosaic.Lib.ValueIdx

noncomputable section

namespace Cert.RowWise

open Idealize.ShloMosaic Idealize.ShloMosaic.ValueIdx

variable {α : Type}

/-- The shape of N rows of w columns. -/
abbrev Sh (N w : Nat) : Shape := ⟨2, ![N, w]⟩

/-- Row r of u equals row r' of u'. -/
def RowRel {N N' w : Nat} (r : Fin N) (r' : Fin N') (u : (Sh N w).Idx → α) (u' : (Sh N' w).Idx → α) : Prop :=
  ∀ i : Fin w, u (ix2 r i) = u' (ix2 r' i)

/-- Columns o, ..., o + b - 1 of equal rows are equal rows. -/
theorem slice {N N' a b : Nat} (o : Nat) {r : Fin N} {r' : Fin N'} {u : (Sh N a).Idx → α} {u' : (Sh N' a).Idx → α}
    (hu : RowRel r r' u u')
    (h : (Sh N a).Slices ![0, o] (Sh N b) := by decide) (h' : (Sh N' a).Slices ![0, o] (Sh N' b) := by decide) :
    RowRel r r' (extractStridedSlice (Sh N b) ![0, o] u h) (extractStridedSlice (Sh N' b) ![0, o] u' h') := by
  intro i
  have hob : o + b ≤ a := h.2 (1 : Fin 2)
  have hb : o + i.val < a := by have := i.isLt; omega
  rw [extractStridedSlice_apply ![0, o] u h (ix2 r i) (ix2 r ⟨o + i.val, hb⟩) (fun d => match d with
        | ⟨0, _⟩ => by show r.val = 0 + r.val; omega
        | ⟨1, _⟩ => rfl),
      extractStridedSlice_apply ![0, o] u' h' (ix2 r' i) (ix2 r' ⟨o + i.val, hb⟩) (fun d => match d with
        | ⟨0, _⟩ => by show r'.val = 0 + r'.val; omega
        | ⟨1, _⟩ => rfl)]
  exact hu ⟨o + i.val, hb⟩

/-- One column copied across b columns: the kernel's broadcast of a vector and the host's broadcast along named
    axes give equal rows from equal rows. -/
theorem bcast {N N' b : Nat} {r : Fin N} {r' : Fin N'} {u : (Sh N 1).Idx → α} {u' : (Sh N' 1).Idx → α}
    (hu : RowRel r r' u u')
    (h : (Sh N 1).Broadcasts (Sh N b) := by decide) (h' : (Sh N' 1).BroadcastsInDim (Sh N' b) ![0, 1] := by decide) :
    RowRel r r' (broadcastTo (Sh N b) u h) (broadcastInDim (Sh N' b) ![0, 1] h' u') := by
  intro i
  rw [broadcastTo_apply u h (ix2 r i) (ix2 r (0 : Fin 1)) (fun d => match d with
        | ⟨0, _⟩ => by
          show r.val = if N = 1 then 0 else r.val
          have := r.isLt
          split <;> omega
        | ⟨1, _⟩ => by show 0 = if (1 : Nat) = 1 then 0 else i.val; rw [if_pos rfl]),
      broadcastInDim_apply ![0, 1] h' u' (ix2 r' i) (ix2 r' (0 : Fin 1)) (fun d => match d with
        | ⟨0, _⟩ => by
          show r'.val = if N' = 1 then 0 else r'.val
          have := r'.isLt
          split <;> omega
        | ⟨1, _⟩ => by show 0 = if (1 : Nat) = 1 then 0 else i.val; rw [if_pos rfl])]
  exact hu 0

/-- Products of equal rows, entry by entry. -/
theorem mul {F : FTy → Type} [FloatOps F] {φ : FTy} {N N' w : Nat} {r : Fin N} {r' : Fin N'}
    {u v : FVec F (Sh N w) φ} {u' v' : FVec F (Sh N' w) φ}
    (hu : RowRel r r' u u') (hv : RowRel r r' v v') : RowRel r r' (mulf u v) (mulf u' v') := by
  intro i
  show FloatOps.mulf (u (ix2 r i)) (v (ix2 r i)) = FloatOps.mulf (u' (ix2 r' i)) (v' (ix2 r' i))
  rw [hu i, hv i]

/-! ## Pieces laid side by side -/

/-- The widths of the pieces xs, as a concatenation into t along a counts them, summed. -/
def extentSum (t : Shape) (a : Fin t.rank) (xs : List ((s : Shape) × (s.Idx → α))) : Nat :=
  ((xs.map (·.1)).map fun s => if h : s.rank = t.rank then s.size (a.cast h.symm) else 0).sum

theorem extentSum_cons {N T w : Nat} (u : (Sh N w).Idx → α) (xs : List ((s : Shape) × (s.Idx → α))) :
    extentSum (Sh N T) 1 (⟨Sh N w, u⟩ :: xs) = w + extentSum (Sh N T) 1 xs := by
  show (if h : (Sh N w).rank = (Sh N T).rank then (Sh N w).size ((1 : Fin (Sh N T).rank).cast h.symm) else 0) + _ = _
  rw [dif_pos rfl]
  rfl

/-- Two lists of pieces of the same widths, piece by piece with equal rows. -/
inductive Pieces {N N' : Nat} (r : Fin N) (r' : Fin N') :
    List ((s : Shape) × (s.Idx → α)) → List ((s : Shape) × (s.Idx → α)) → Prop
  | nil : Pieces r r' [] []
  | cons {w : Nat} {u : (Sh N w).Idx → α} {u' : (Sh N' w).Idx → α}
      {xs xs' : List ((s : Shape) × (s.Idx → α))} :
      RowRel r r' u u' → Pieces r r' xs xs' → Pieces r r' (⟨Sh N w, u⟩ :: xs) (⟨Sh N' w, u'⟩ :: xs')

/-- A column c of the joined row lies in one piece: the k-th, pre columns after the start, the same k and
    pre in both lists. -/
theorem Pieces.find {N N' T : Nat} {r : Fin N} {r' : Fin N'} {xs xs' : List ((s : Shape) × (s.Idx → α))}
    (hp : Pieces r r' xs xs') : ∀ c : Nat, c < extentSum (Sh N T) 1 xs →
      ∃ (k : Nat) (hk : k < xs.length) (hk' : k < xs'.length) (w : Nat) (u : (Sh N w).Idx → α)
        (u' : (Sh N' w).Idx → α) (pre : Nat),
        xs[k] = ⟨Sh N w, u⟩ ∧ xs'[k] = ⟨Sh N' w, u'⟩ ∧ RowRel r r' u u'
        ∧ extentSum (Sh N T) 1 (xs.take k) = pre ∧ extentSum (Sh N' T) 1 (xs'.take k) = pre
        ∧ pre ≤ c ∧ c < pre + w := by
  induction hp with
  | nil => intro c hc; exact absurd hc (Nat.not_lt_zero _)
  | @cons w u u' xs xs' hu _ ih =>
    intro c hc
    rw [extentSum_cons] at hc
    by_cases hcw : c < w
    · exact ⟨0, Nat.succ_pos _, Nat.succ_pos _, w, u, u', 0, rfl, rfl, hu, rfl, rfl, Nat.zero_le _, by omega⟩
    · obtain ⟨k, hk, hk', w1, u1, u1', pre, e, e', hu1, hpre, hpre', hlo, hhi⟩ := ih (c - w) (by omega)
      refine ⟨k + 1, Nat.succ_lt_succ hk, Nat.succ_lt_succ hk', w1, u1, u1', w + pre, ?_, ?_, hu1, ?_, ?_,
        by omega, by omega⟩
      · rw [List.getElem_cons_succ]; exact e
      · rw [List.getElem_cons_succ]; exact e'
      · rw [List.take_succ_cons, extentSum_cons, hpre]
      · rw [List.take_succ_cons, extentSum_cons, hpre']

/-- Pieces with equal rows, laid side by side, have equal rows. -/
theorem cat {N N' T : Nat} {r : Fin N} {r' : Fin N'} {xs xs' : List ((s : Shape) × (s.Idx → α))}
    (hp : Pieces r r' xs xs')
    (h : Shape.Concatenates (xs.map (·.1)) (Sh N T) 1 := by simp only [List.map_cons, List.map_nil]; decide)
    (h' : Shape.Concatenates (xs'.map (·.1)) (Sh N' T) 1 := by simp only [List.map_cons, List.map_nil]; decide) :
    RowRel r r' (concatenate (Sh N T) 1 xs h) (concatenate (Sh N' T) 1 xs' h') := by
  intro i
  have hT : extentSum (Sh N T) 1 xs = T := h.2.2
  have hc : i.val < extentSum (Sh N T) 1 xs := by rw [hT]; exact i.isLt
  obtain ⟨k, hk, hk', w, u, u', pre, e, e', hu, hpre, hpre', hlo, hhi⟩ := hp.find i.val hc
  have hw : i.val - pre < w := by omega
  rw [concatenate_apply_piece 1 xs h (ix2 r i) k hk (Sh N w) u e rfl pre hpre (ix2 r ⟨i.val - pre, hw⟩)
        (fun b hb => match b, hb with
          | ⟨0, _⟩, _ => rfl
          | ⟨1, _⟩, hb => absurd (Fin.ext rfl) hb)
        (by show pre + (i.val - pre) = i.val; omega),
      concatenate_apply_piece 1 xs' h' (ix2 r' i) k hk' (Sh N' w) u' e' rfl pre hpre' (ix2 r' ⟨i.val - pre, hw⟩)
        (fun b hb => match b, hb with
          | ⟨0, _⟩, _ => rfl
          | ⟨1, _⟩, hb => absurd (Fin.ext rfl) hb)
        (by show pre + (i.val - pre) = i.val; omega)]
  exact hu ⟨i.val - pre, hw⟩

end Cert.RowWise

end
-- ==== Proof.KernelTile.lean ====
/-
  One tile of the kernel. From a tile x of 2048 rows the body builds a table of 969 columns, row by row the
  monomials of degree at most three in the row's sixteen entries: the constant one, the sixteen entries, the 136
  products of two (column i times the columns up to i), and the 816 products of three (column i times the first
  (i+1)(i+2)/2 products of two). It multiplies the table by the weights W into a zero accumulator and adds x.
  Here the table is named, the value the body stores is written over it, and, at the extended reals, that value is
  read at a row r and a column c: x(r, c) plus the sum over the 969 columns k of table(r, k) times W(k, c).
-/
import proofs.«111983_j33603824124566_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelTile

open Cert.KernelIdeal Cert.KernelIdeal.Gen Idealize.ShloMosaic Idealize.ShloMosaic.ValueIdx

variable {F : FTy → Type} [FloatOps F]

/-- A function of the tile and of the pieces of its products of two, at the pieces the body computes from the tile:
    the first thirteen products, and for the fourteenth its two factors. -/
abbrev onPieces {β : Type}
    (f : Vec F S2048x16 .f32 → FVec F S2048x1 .f32 → FVec F S2048x2 .f32 → FVec F S2048x3 .f32 → FVec F S2048x4 .f32 → FVec F S2048x5 .f32 → FVec F S2048x6 .f32 → FVec F S2048x7 .f32 → FVec F S2048x8 .f32 → FVec F S2048x9 .f32 → FVec F S2048x10 .f32 → FVec F S2048x11 .f32 → FVec F S2048x12 .f32 → FVec F S2048x13 .f32 → FVec F S2048x14 .f32 → FVec F S2048x14 .f32 → β)
    (x : Vec F S2048x16 .f32) : β :=
  f x (k0_pay6 x) (k0_pay7 x) (k0_pay8 x) (k0_pay9 x) (k0_pay10 x) (k0_pay11 x) (k0_pay12 x) (k0_pay13 x) (k0_pay14 x) (k0_pay15 x) (k0_pay16 x) (k0_pay17 x) (k0_pay18 x) (k0_pay19 x) (k0_pay20 x)

/-- The 136 products of two entries of a row. -/
def deg2 (x : Vec F S2048x16 .f32) : FVec F S2048x136 .f32 := onPieces k0_pay21 x

/-- The 816 products of three entries of a row. -/
def deg3 (x : Vec F S2048x16 .f32) : FVec F S2048x816 .f32 :=
  concatenate S2048x816 1
    [ ⟨S2048x1, onPieces k0_pay22 x⟩,
      ⟨S2048x3, onPieces k0_pay23 x⟩,
      ⟨S2048x6, onPieces k0_pay24 x⟩,
      ⟨S2048x10, onPieces k0_pay25 x⟩,
      ⟨S2048x15, onPieces k0_pay26 x⟩,
      ⟨S2048x21, onPieces k0_pay27 x⟩,
      ⟨S2048x28, onPieces k0_pay28 x⟩,
      ⟨S2048x36, onPieces k0_pay29 x⟩,
      ⟨S2048x45, onPieces k0_pay30 x⟩,
      ⟨S2048x55, onPieces k0_pay31 x⟩,
      ⟨S2048x66, onPieces k0_pay32 x⟩,
      ⟨S2048x78, onPieces k0_pay33 x⟩,
      ⟨S2048x91, onPieces k0_pay34 x⟩,
      ⟨S2048x105, k0_pay1 x (deg2 x)⟩,
      ⟨S2048x120, k0_pay2 x (deg2 x)⟩,
      ⟨S2048x136, k0_pay3 x (deg2 x)⟩]
    concatenates_S2048x1_S2048x3_S2048x6_S2048x10_S2048x15_S2048x21_S2048x28_S2048x36_S2048x45_S2048x55_S2048x66_S2048x78_S2048x91_S2048x105_S2048x120_S2048x136_S2048x816_d1

/-- The table of monomials: one, the entries, the products of two, the products of three. -/
def table (x : Vec F S2048x16 .f32) : FVec F S2048x969 .f32 :=
  concatenate S2048x969 1 [⟨S2048x1, k0_pay5⟩, ⟨S2048x16, x⟩, ⟨S2048x136, deg2 x⟩, ⟨S2048x816, deg3 x⟩]
    concatenates_S2048x1_S2048x16_S2048x136_S2048x816_S2048x969_d1

theorem origin : (![0, 0] : Fin 2 → Nat) = fun _ => 0 := funext fun a => by fin_cases a <;> rfl

/-- What the body leaves in the output tile: the input tile plus its table times the weights. -/
theorem out_eq (x0 : Vec F S2048x16 .f32) (x1 : Vec F S969x16 .f32) :
    out0_2 x0 x1 = addf x0 (matmul dot_S2048x969_S969x16_S2048x16_1_0_0_1_n_n none (table x0) x1 (constant S2048x16 .f32 0x00000000#32)) := by
  unfold out0_2
  rw [View.canon_unit_zero origin]
  have e0 : View.ld x0 r0_0 = x0 := View.ld_unit_zero origin _ x0
  have e1 : View.ld x1 r0_1 = x1 := View.ld_unit_zero origin _ x1
  rw [e0, e1]
  rfl

/-! ## The product with the weights, at a row and a column -/

theorem lhs_0 (i : S2048x16.Idx) (q : dot_S2048x969_S969x16_S2048x16_1_0_0_1_n_n.contr.Idx) :
    (dot_S2048x969_S969x16_S2048x16_1_0_0_1_n_n.lhsIdx i q 0).val = (i 0).val := by
  unfold DotDims.lhsIdx
  rw [dif_neg (show ¬(0 : Fin S2048x969.rank) ∈ dot_S2048x969_S969x16_S2048x16_1_0_0_1_n_n.lhsBatch by decide), dif_pos (show (0 : Fin S2048x969.rank) ∈ dot_S2048x969_S969x16_S2048x16_1_0_0_1_n_n.lhsNonContracting by decide)]
  rfl
theorem lhs_1 (i : S2048x16.Idx) (q : dot_S2048x969_S969x16_S2048x16_1_0_0_1_n_n.contr.Idx) :
    (dot_S2048x969_S969x16_S2048x16_1_0_0_1_n_n.lhsIdx i q 1).val = (q ⟨0, by decide⟩).val :=
  dot_S2048x969_S969x16_S2048x16_1_0_0_1_n_n.lhsIdx_val_of_single rfl i q
theorem rhs_0 (i : S2048x16.Idx) (q : dot_S2048x969_S969x16_S2048x16_1_0_0_1_n_n.contr.Idx) :
    (dot_S2048x969_S969x16_S2048x16_1_0_0_1_n_n.rhsIdx i q 0).val = (q ⟨0, by decide⟩).val :=
  dot_S2048x969_S969x16_S2048x16_1_0_0_1_n_n.rhsIdx_val_of_single rfl i q
theorem rhs_1 (i : S2048x16.Idx) (q : dot_S2048x969_S969x16_S2048x16_1_0_0_1_n_n.contr.Idx) :
    (dot_S2048x969_S969x16_S2048x16_1_0_0_1_n_n.rhsIdx i q 1).val = (i 1).val := by
  unfold DotDims.rhsIdx
  rw [dif_neg (show ¬(1 : Fin S969x16.rank) ∈ dot_S2048x969_S969x16_S2048x16_1_0_0_1_n_n.rhsBatch by decide), dif_pos (show (1 : Fin S969x16.rank) ∈ dot_S2048x969_S969x16_S2048x16_1_0_0_1_n_n.rhsNonContracting by decide)]
  rfl

/-- At the extended reals: entry (r, c) of the stored tile is x(r, c) plus the sum over the table's columns k of
    table(r, k) times W(k, c). -/
theorem out_apply (x0 : Vec Ideal S2048x16 .f32) (x1 : Vec Ideal S969x16 .f32) (r : Fin 2048) (c : Fin 16) :
    out0_2 x0 x1 (ix2 r c) = x0 (ix2 r c) + ∑ k : Fin 969, table x0 (ix2 r k) * x1 (ix2 k c) := by
  rw [out_eq]
  show x0 (ix2 r c) + matmul dot_S2048x969_S969x16_S2048x16_1_0_0_1_n_n none (table x0) x1 (constant S2048x16 .f32 0x00000000#32) (ix2 r c) = _
  simp only [matmul]
  rw [Ideal.matmul_constant_zero_apply, ← Equiv.sum_comp (contrEquiv1 dot_S2048x969_S969x16_S2048x16_1_0_0_1_n_n 969 rfl rfl).symm]
  refine congrArg (x0 (ix2 r c) + ·) (Finset.sum_congr rfl fun k _ => ?_)
  have hk := contrEquiv1_symm_val dot_S2048x969_S969x16_S2048x16_1_0_0_1_n_n 969 rfl rfl k
  have el : dot_S2048x969_S969x16_S2048x16_1_0_0_1_n_n.lhsIdx (ix2 r c) ((contrEquiv1 dot_S2048x969_S969x16_S2048x16_1_0_0_1_n_n 969 rfl rfl).symm k) = ix2 r k := funext fun a => Fin.ext (by
    match a with
    | ⟨0, _⟩ => exact lhs_0 _ _
    | ⟨1, _⟩ => exact (lhs_1 _ _).trans hk)
  have er : dot_S2048x969_S969x16_S2048x16_1_0_0_1_n_n.rhsIdx (ix2 r c) ((contrEquiv1 dot_S2048x969_S969x16_S2048x16_1_0_0_1_n_n 969 rfl rfl).symm k) = ix2 k c := funext fun a => Fin.ext (by
    match a with
    | ⟨0, _⟩ => exact (rhs_0 _ _).trans hk
    | ⟨1, _⟩ => exact rhs_1 _ _)
  rw [el, er]

end Cert.KernelTile

end
-- ==== Proof.TableRows.lean ====
/-
  The two tables agree row by row. The reference builds, over all 262144 rows at once, the same table of monomials
  the kernel builds over a tile of 2048: the same slices, the same column copied across, the same products, the
  same pieces side by side in the same order. Each of these acts on a row alone, so where a row of the tile is a
  row of the array, the table's row over the tile is the table's row over the array.
    Products of two: piece i is column i times columns 0..i.
    Products of three: piece i is column i times the first (i+1)(i+2)/2 products of two.
-/
import proofs.«111983_j33603824124566_1_alg».proof.Proof.LibRowWise
import proofs.«111983_j33603824124566_1_alg».proof.Proof.KernelTile
import proofs.«111983_j33603824124566_1_alg».proof.Proof.RefStages

set_option maxRecDepth 8192

noncomputable section

namespace Cert.TableRows

open Cert.KernelIdeal Cert.KernelIdeal.Gen Cert.KernelTile Cert.RowWise Idealize.ShloMosaic Idealize.ShloMosaic.ValueIdx

variable {F : FTy → Type} [FloatOps F]
variable {x : Vec F S2048x16 .f32} {X : Vec F Cert.ReferenceIdeal.S262144x16 .f32} {r : Fin 2048} {R : Fin 262144}

/-- The column of ones. -/
theorem ones_rows : RowRel r R (k0_pay5 (F := F)) (Cert.ReferenceIdeal.Stages.val_main_v0 (F := F)) := fun _ => rfl

/-- The products of two entries of a row. -/
theorem deg2_rows (hx : RowRel r R x X) : RowRel r R (deg2 x) (Cert.ReferenceIdeal.Stages.val_main_v63 X) :=
  cat
    (.cons (mul (slice 0 hx) (slice 0 hx))
      (.cons (mul (bcast (slice 1 hx)) (slice 0 hx))
      (.cons (mul (bcast (slice 2 hx)) (slice 0 hx))
      (.cons (mul (bcast (slice 3 hx)) (slice 0 hx))
      (.cons (mul (bcast (slice 4 hx)) (slice 0 hx))
      (.cons (mul (bcast (slice 5 hx)) (slice 0 hx))
      (.cons (mul (bcast (slice 6 hx)) (slice 0 hx))
      (.cons (mul (bcast (slice 7 hx)) (slice 0 hx))
      (.cons (mul (bcast (slice 8 hx)) (slice 0 hx))
      (.cons (mul (bcast (slice 9 hx)) (slice 0 hx))
      (.cons (mul (bcast (slice 10 hx)) (slice 0 hx))
      (.cons (mul (bcast (slice 11 hx)) (slice 0 hx))
      (.cons (mul (bcast (slice 12 hx)) (slice 0 hx))
      (.cons (mul (bcast (slice 13 hx)) (slice 0 hx))
      (.cons (mul (bcast (slice 14 hx)) (slice 0 hx))
      (.cons (mul (bcast (slice 15 hx)) hx)
      (.nil)))))))))))))))))

/-- The products of three entries of a row. -/
theorem deg3_rows (hx : RowRel r R x X) : RowRel r R (deg3 x) (Cert.ReferenceIdeal.Stages.val_main_v126 X) :=
  have h2 := deg2_rows hx
  cat
    (.cons (mul (slice 0 hx) (slice 0 h2))
      (.cons (mul (bcast (slice 1 hx)) (slice 0 h2))
      (.cons (mul (bcast (slice 2 hx)) (slice 0 h2))
      (.cons (mul (bcast (slice 3 hx)) (slice 0 h2))
      (.cons (mul (bcast (slice 4 hx)) (slice 0 h2))
      (.cons (mul (bcast (slice 5 hx)) (slice 0 h2))
      (.cons (mul (bcast (slice 6 hx)) (slice 0 h2))
      (.cons (mul (bcast (slice 7 hx)) (slice 0 h2))
      (.cons (mul (bcast (slice 8 hx)) (slice 0 h2))
      (.cons (mul (bcast (slice 9 hx)) (slice 0 h2))
      (.cons (mul (bcast (slice 10 hx)) (slice 0 h2))
      (.cons (mul (bcast (slice 11 hx)) (slice 0 h2))
      (.cons (mul (bcast (slice 12 hx)) (slice 0 h2))
      (.cons (mul (bcast (slice 13 hx)) (slice 0 h2))
      (.cons (mul (bcast (slice 14 hx)) (slice 0 h2))
      (.cons (mul (bcast (slice 15 hx)) h2)
      (.nil)))))))))))))))))

/-- The whole table: one, the entries, the products of two, the products of three. -/
theorem table_rows (hx : RowRel r R x X) : RowRel r R (table x) (Cert.ReferenceIdeal.Stages.val_main_v127 X) :=
  cat (.cons ones_rows (.cons hx (.cons (deg2_rows hx) (.cons (deg3_rows hx) .nil))))

end Cert.TableRows

end
-- ==== Proof.TileValue.lean ====
/-
  One entry of a tile against the reference. Where row r of the input tile is row R of the input array, entry
  (r, c) of what the kernel stores is entry (R, c) of the reference's result: both are x(R, c) plus the sum over the
  969 monomials k of table(R, k) times W(k, c), the kernel's product into a zero accumulator and the host's
  contraction being that same sum on the extended reals, and the two tables agreeing on the row.
-/
import proofs.«111983_j33603824124566_1_alg».proof.Proof.TableRows

noncomputable section

namespace Cert.TileValue

open Cert.KernelIdeal Cert.KernelIdeal.Gen Cert.KernelTile Cert.RowWise Cert.TableRows
open Idealize.ShloMosaic Idealize.ShloMosaic.ValueIdx

theorem tile_eq (x0 : Vec Ideal S2048x16 .f32) (x1 : Vec Ideal S969x16 .f32)
    (X : Vec Ideal Cert.ReferenceIdeal.S262144x16 .f32) (W : Vec Ideal Cert.ReferenceIdeal.S969x16 .f32)
    (r : Fin 2048) (R : Fin 262144) (c : Fin 16) (hx : RowRel r R x0 X) (hw : x1 = W) :
    out0_2 x0 x1 (ix2 r c) = Cert.ReferenceIdeal.Stages.val_main_v129 X W (ix2 R c) := by
  subst hw
  rw [out_apply, Cert.ReferenceIdeal.Stages.val_main_v129_apply, Cert.ReferenceIdeal.Stages.val_main_v128_apply]
  show x0 (ix2 r c) + _ = X (ix2 R c) + _
  rw [hx c]
  refine congrArg (X (ix2 R c) + ·) (Finset.sum_congr rfl fun k _ => ?_)
  have el : Cert.ReferenceIdeal.Stages.lidx_main_v128 (ix2 R c) k = ix2 R k :=
    funext fun a => match a with | ⟨0, _⟩ => rfl | ⟨1, _⟩ => rfl
  have er : Cert.ReferenceIdeal.Stages.ridx_main_v128 (ix2 R c) k = ix2 k c :=
    funext fun a => match a with | ⟨0, _⟩ => rfl | ⟨1, _⟩ => rfl
  rw [el, er, table_rows hx k]

end Cert.TileValue

end
-- ==== Proof.RefRunA.lean ====
/-
  The reference's run, first stretch: the 64 operations that make the constant column and the sixteen pieces of
  the products of two. What each of the five stretches writes is listed here; a reference a stretch does not write
  keeps its contents through it. After the first stretch each piece is its stage function of the input array,
  whatever the contents at launch.
-/
import proofs.«111983_j33603824124566_1_alg».proof.Proof.RefOps
import proofs.«111983_j33603824124566_1_alg».proof.Proof.RefStages
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Ops Cert.ReferenceIdeal.Stages

variable {F : FTy → Type} [FloatOps F]

/-! ## What each stretch writes -/

abbrev w1_W : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62]
abbrev w2_W : List (Ref sig .tc) := [main_v63]
abbrev w3_W : List (Ref sig .tc) := [main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125]
abbrev w4_W : List (Ref sig .tc) := [main_v126]
abbrev w5_W : List (Ref sig .tc) := [main_v127, main_v128, main_v129]

/-- Each operation of window 1 writes one reference of its list. -/
theorem w1_writes : (w1 : List (HloOp τ sig (Elt F))).Forall fun op => op.writes ⊆ (w1_W.map (Proc.devRef (τ := τ) .tc)).toFinset := by
  simp only [List.Forall]
  (repeat' apply And.intro) <;> (simp only [nullary_writes, unary_writes, binary_writes, nary_writes, Finset.singleton_subset_iff, List.mem_toFinset]; exact List.mem_map_of_mem (by decide))
/-- Each operation of window 2 writes one reference of its list. -/
theorem w2_writes : (w2 : List (HloOp τ sig (Elt F))).Forall fun op => op.writes ⊆ (w2_W.map (Proc.devRef (τ := τ) .tc)).toFinset := by
  simp only [List.Forall]
  (simp only [nullary_writes, unary_writes, binary_writes, nary_writes, Finset.singleton_subset_iff, List.mem_toFinset]; exact List.mem_map_of_mem (by decide))
/-- Each operation of window 3 writes one reference of its list. -/
theorem w3_writes : (w3 : List (HloOp τ sig (Elt F))).Forall fun op => op.writes ⊆ (w3_W.map (Proc.devRef (τ := τ) .tc)).toFinset := by
  simp only [List.Forall]
  (repeat' apply And.intro) <;> (simp only [nullary_writes, unary_writes, binary_writes, nary_writes, Finset.singleton_subset_iff, List.mem_toFinset]; exact List.mem_map_of_mem (by decide))
/-- Each operation of window 4 writes one reference of its list. -/
theorem w4_writes : (w4 : List (HloOp τ sig (Elt F))).Forall fun op => op.writes ⊆ (w4_W.map (Proc.devRef (τ := τ) .tc)).toFinset := by
  simp only [List.Forall]
  (simp only [nullary_writes, unary_writes, binary_writes, nary_writes, Finset.singleton_subset_iff, List.mem_toFinset]; exact List.mem_map_of_mem (by decide))
/-- Each operation of window 5 writes one reference of its list. -/
theorem w5_writes : (w5 : List (HloOp τ sig (Elt F))).Forall fun op => op.writes ⊆ (w5_W.map (Proc.devRef (τ := τ) .tc)).toFinset := by
  simp only [List.Forall]
  (repeat' apply And.intro) <;> (simp only [nullary_writes, unary_writes, binary_writes, nary_writes, Finset.singleton_subset_iff, List.mem_toFinset]; exact List.mem_map_of_mem (by decide))

variable (V0 : Valuation τ sig (Elt F))

/-! ## After the first stretch -/

def val1 : Valuation τ sig (Elt F) := after w1 V0
/-- A reference window 1 does not write keeps its contents through it. -/
theorem val1_keep (r : Ref sig .tc) (h : r ∉ w1_W) : val1 V0 (Proc.devRef .tc r) = V0 (Proc.devRef .tc r) :=
  after_of_writes_sub w1 _ w1_writes h
theorem val1_arg0 : val1 V0 (no_index (Proc.devRef .tc main_arg0)) = V0 (Proc.devRef .tc main_arg0) := val1_keep V0 main_arg0 (by decide)
theorem val1_arg1 : val1 V0 (no_index (Proc.devRef .tc main_arg1)) = V0 (Proc.devRef .tc main_arg1) := val1_keep V0 main_arg1 (by decide)
set_option maxHeartbeats 2000000 in
theorem val1_v0 : val1 V0 (no_index (Proc.devRef .tc main_v0)) = val_main_v0  := by
  unfold val1; simp only [w1]; after_results_simp; rfl
set_option maxHeartbeats 2000000 in
theorem val1_v3 : val1 V0 (no_index (Proc.devRef .tc main_v3)) = val_main_v3 (V0 (Proc.devRef .tc main_arg0)) := by
  unfold val1; simp only [w1]; after_results_simp; rfl
set_option maxHeartbeats 2000000 in
theorem val1_v7 : val1 V0 (no_index (Proc.devRef .tc main_v7)) = val_main_v7 (V0 (Proc.devRef .tc main_arg0)) := by
  unfold val1; simp only [w1]; after_results_simp; rfl
set_option maxHeartbeats 2000000 in
theorem val1_v11 : val1 V0 (no_index (Proc.devRef .tc main_v11)) = val_main_v11 (V0 (Proc.devRef .tc main_arg0)) := by
  unfold val1; simp only [w1]; after_results_simp; rfl
set_option maxHeartbeats 2000000 in
theorem val1_v15 : val1 V0 (no_index (Proc.devRef .tc main_v15)) = val_main_v15 (V0 (Proc.devRef .tc main_arg0)) := by
  unfold val1; simp only [w1]; after_results_simp; rfl
set_option maxHeartbeats 2000000 in
theorem val1_v19 : val1 V0 (no_index (Proc.devRef .tc main_v19)) = val_main_v19 (V0 (Proc.devRef .tc main_arg0)) := by
  unfold val1; simp only [w1]; after_results_simp; rfl
set_option maxHeartbeats 2000000 in
theorem val1_v23 : val1 V0 (no_index (Proc.devRef .tc main_v23)) = val_main_v23 (V0 (Proc.devRef .tc main_arg0)) := by
  unfold val1; simp only [w1]; after_results_simp; rfl
set_option maxHeartbeats 2000000 in
theorem val1_v27 : val1 V0 (no_index (Proc.devRef .tc main_v27)) = val_main_v27 (V0 (Proc.devRef .tc main_arg0)) := by
  unfold val1; simp only [w1]; after_results_simp; rfl
set_option maxHeartbeats 2000000 in
theorem val1_v31 : val1 V0 (no_index (Proc.devRef .tc main_v31)) = val_main_v31 (V0 (Proc.devRef .tc main_arg0)) := by
  unfold val1; simp only [w1]; after_results_simp; rfl
set_option maxHeartbeats 2000000 in
theorem val1_v35 : val1 V0 (no_index (Proc.devRef .tc main_v35)) = val_main_v35 (V0 (Proc.devRef .tc main_arg0)) := by
  unfold val1; simp only [w1]; after_results_simp; rfl
set_option maxHeartbeats 2000000 in
theorem val1_v39 : val1 V0 (no_index (Proc.devRef .tc main_v39)) = val_main_v39 (V0 (Proc.devRef .tc main_arg0)) := by
  unfold val1; simp only [w1]; after_results_simp; rfl
set_option maxHeartbeats 2000000 in
theorem val1_v43 : val1 V0 (no_index (Proc.devRef .tc main_v43)) = val_main_v43 (V0 (Proc.devRef .tc main_arg0)) := by
  unfold val1; simp only [w1]; after_results_simp; rfl
set_option maxHeartbeats 2000000 in
theorem val1_v47 : val1 V0 (no_index (Proc.devRef .tc main_v47)) = val_main_v47 (V0 (Proc.devRef .tc main_arg0)) := by
  unfold val1; simp only [w1]; after_results_simp; rfl
set_option maxHeartbeats 2000000 in
theorem val1_v51 : val1 V0 (no_index (Proc.devRef .tc main_v51)) = val_main_v51 (V0 (Proc.devRef .tc main_arg0)) := by
  unfold val1; simp only [w1]; after_results_simp; rfl
set_option maxHeartbeats 2000000 in
theorem val1_v55 : val1 V0 (no_index (Proc.devRef .tc main_v55)) = val_main_v55 (V0 (Proc.devRef .tc main_arg0)) := by
  unfold val1; simp only [w1]; after_results_simp; rfl
set_option maxHeartbeats 2000000 in
theorem val1_v59 : val1 V0 (no_index (Proc.devRef .tc main_v59)) = val_main_v59 (V0 (Proc.devRef .tc main_arg0)) := by
  unfold val1; simp only [w1]; after_results_simp; rfl
set_option maxHeartbeats 2000000 in
theorem val1_v62 : val1 V0 (no_index (Proc.devRef .tc main_v62)) = val_main_v62 (V0 (Proc.devRef .tc main_arg0)) := by
  unfold val1; simp only [w1]; after_results_simp; rfl

end Cert.ReferenceIdeal.HandRun

end
-- ==== Proof.RefRunB.lean ====
/-
  The reference's run, second stretch: the sixteen pieces of the products of two joined side by side are the stage
  of the joined products.
-/
import proofs.«111983_j33603824124566_1_alg».proof.Proof.RefRunA

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Ops Cert.ReferenceIdeal.Stages

variable {F : FTy → Type} [FloatOps F]

variable (V0 : Valuation τ sig (Elt F))

/-! ## After the joining of the products of two -/

def val2 : Valuation τ sig (Elt F) := after w2 (val1 V0)
/-- A reference window 2 does not write keeps its contents through it. -/
theorem val2_keep (r : Ref sig .tc) (h : r ∉ w2_W) : val2 V0 (Proc.devRef .tc r) = val1 V0 (Proc.devRef .tc r) :=
  after_of_writes_sub w2 _ w2_writes h
theorem val2_arg0 : val2 V0 (no_index (Proc.devRef .tc main_arg0)) = V0 (Proc.devRef .tc main_arg0) :=
  (val2_keep V0 main_arg0 (by decide)).trans (val1_arg0 V0)
theorem val2_arg1 : val2 V0 (no_index (Proc.devRef .tc main_arg1)) = V0 (Proc.devRef .tc main_arg1) :=
  (val2_keep V0 main_arg1 (by decide)).trans (val1_arg1 V0)
theorem val2_v0 : val2 V0 (no_index (Proc.devRef .tc main_v0)) = val_main_v0 :=
  (val2_keep V0 main_v0 (by decide)).trans (val1_v0 V0)
set_option maxHeartbeats 2000000 in
theorem val2_v63 : val2 V0 (no_index (Proc.devRef .tc main_v63)) = val_main_v63 (V0 (Proc.devRef .tc main_arg0)) := by
  unfold val2; simp only [w2]; after_results_simp
  dsimp only [Matrix.cons_val]
  rw [val1_v3 V0, val1_v7 V0, val1_v11 V0, val1_v15 V0, val1_v19 V0, val1_v23 V0, val1_v27 V0, val1_v31 V0, val1_v35 V0, val1_v39 V0, val1_v43 V0, val1_v47 V0, val1_v51 V0, val1_v55 V0, val1_v59 V0, val1_v62 V0]
  rfl

end Cert.ReferenceIdeal.HandRun

end
-- ==== Proof.RefRunC.lean ====
/-
  The reference's run, third stretch: the 62 operations that make the sixteen pieces of the products of three from
  the input array and the joined products of two; each piece is its stage function of the input array.
-/
import proofs.«111983_j33603824124566_1_alg».proof.Proof.RefRunB

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Ops Cert.ReferenceIdeal.Stages

variable {F : FTy → Type} [FloatOps F]

variable (V0 : Valuation τ sig (Elt F))

/-! ## After the third stretch -/

def val3 : Valuation τ sig (Elt F) := after w3 (val2 V0)
/-- A reference window 3 does not write keeps its contents through it. -/
theorem val3_keep (r : Ref sig .tc) (h : r ∉ w3_W) : val3 V0 (Proc.devRef .tc r) = val2 V0 (Proc.devRef .tc r) :=
  after_of_writes_sub w3 _ w3_writes h
theorem val3_arg0 : val3 V0 (no_index (Proc.devRef .tc main_arg0)) = V0 (Proc.devRef .tc main_arg0) :=
  (val3_keep V0 main_arg0 (by decide)).trans (val2_arg0 V0)
theorem val3_arg1 : val3 V0 (no_index (Proc.devRef .tc main_arg1)) = V0 (Proc.devRef .tc main_arg1) :=
  (val3_keep V0 main_arg1 (by decide)).trans (val2_arg1 V0)
theorem val3_v0 : val3 V0 (no_index (Proc.devRef .tc main_v0)) = val_main_v0 :=
  (val3_keep V0 main_v0 (by decide)).trans (val2_v0 V0)
theorem val3_v63 : val3 V0 (no_index (Proc.devRef .tc main_v63)) = val_main_v63 (V0 (Proc.devRef .tc main_arg0)) :=
  (val3_keep V0 main_v63 (by decide)).trans (val2_v63 V0)
set_option maxHeartbeats 2000000 in
theorem val3_v66 : val3 V0 (no_index (Proc.devRef .tc main_v66)) = val_main_v66 (V0 (Proc.devRef .tc main_arg0)) := by
  unfold val3; simp only [w3]; after_results_simp
  simp only [val2_arg0, val2_v63]; rfl
set_option maxHeartbeats 2000000 in
theorem val3_v70 : val3 V0 (no_index (Proc.devRef .tc main_v70)) = val_main_v70 (V0 (Proc.devRef .tc main_arg0)) := by
  unfold val3; simp only [w3]; after_results_simp
  simp only [val2_arg0, val2_v63]; rfl
set_option maxHeartbeats 2000000 in
theorem val3_v74 : val3 V0 (no_index (Proc.devRef .tc main_v74)) = val_main_v74 (V0 (Proc.devRef .tc main_arg0)) := by
  unfold val3; simp only [w3]; after_results_simp
  simp only [val2_arg0, val2_v63]; rfl
set_option maxHeartbeats 2000000 in
theorem val3_v78 : val3 V0 (no_index (Proc.devRef .tc main_v78)) = val_main_v78 (V0 (Proc.devRef .tc main_arg0)) := by
  unfold val3; simp only [w3]; after_results_simp
  simp only [val2_arg0, val2_v63]; rfl
set_option maxHeartbeats 2000000 in
theorem val3_v82 : val3 V0 (no_index (Proc.devRef .tc main_v82)) = val_main_v82 (V0 (Proc.devRef .tc main_arg0)) := by
  unfold val3; simp only [w3]; after_results_simp
  simp only [val2_arg0, val2_v63]; rfl
set_option maxHeartbeats 2000000 in
theorem val3_v86 : val3 V0 (no_index (Proc.devRef .tc main_v86)) = val_main_v86 (V0 (Proc.devRef .tc main_arg0)) := by
  unfold val3; simp only [w3]; after_results_simp
  simp only [val2_arg0, val2_v63]; rfl
set_option maxHeartbeats 2000000 in
theorem val3_v90 : val3 V0 (no_index (Proc.devRef .tc main_v90)) = val_main_v90 (V0 (Proc.devRef .tc main_arg0)) := by
  unfold val3; simp only [w3]; after_results_simp
  simp only [val2_arg0, val2_v63]; rfl
set_option maxHeartbeats 2000000 in
theorem val3_v94 : val3 V0 (no_index (Proc.devRef .tc main_v94)) = val_main_v94 (V0 (Proc.devRef .tc main_arg0)) := by
  unfold val3; simp only [w3]; after_results_simp
  simp only [val2_arg0, val2_v63]; rfl
set_option maxHeartbeats 2000000 in
theorem val3_v98 : val3 V0 (no_index (Proc.devRef .tc main_v98)) = val_main_v98 (V0 (Proc.devRef .tc main_arg0)) := by
  unfold val3; simp only [w3]; after_results_simp
  simp only [val2_arg0, val2_v63]; rfl
set_option maxHeartbeats 2000000 in
theorem val3_v102 : val3 V0 (no_index (Proc.devRef .tc main_v102)) = val_main_v102 (V0 (Proc.devRef .tc main_arg0)) := by
  unfold val3; simp only [w3]; after_results_simp
  simp only [val2_arg0, val2_v63]; rfl
set_option maxHeartbeats 2000000 in
theorem val3_v106 : val3 V0 (no_index (Proc.devRef .tc main_v106)) = val_main_v106 (V0 (Proc.devRef .tc main_arg0)) := by
  unfold val3; simp only [w3]; after_results_simp
  simp only [val2_arg0, val2_v63]; rfl
set_option maxHeartbeats 2000000 in
theorem val3_v110 : val3 V0 (no_index (Proc.devRef .tc main_v110)) = val_main_v110 (V0 (Proc.devRef .tc main_arg0)) := by
  unfold val3; simp only [w3]; after_results_simp
  simp only [val2_arg0, val2_v63]; rfl
set_option maxHeartbeats 2000000 in
theorem val3_v114 : val3 V0 (no_index (Proc.devRef .tc main_v114)) = val_main_v114 (V0 (Proc.devRef .tc main_arg0)) := by
  unfold val3; simp only [w3]; after_results_simp
  simp only [val2_arg0, val2_v63]; rfl
set_option maxHeartbeats 2000000 in
theorem val3_v118 : val3 V0 (no_index (Proc.devRef .tc main_v118)) = val_main_v118 (V0 (Proc.devRef .tc main_arg0)) := by
  unfold val3; simp only [w3]; after_results_simp
  simp only [val2_arg0, val2_v63]; rfl
set_option maxHeartbeats 2000000 in
theorem val3_v122 : val3 V0 (no_index (Proc.devRef .tc main_v122)) = val_main_v122 (V0 (Proc.devRef .tc main_arg0)) := by
  unfold val3; simp only [w3]; after_results_simp
  simp only [val2_arg0, val2_v63]; rfl
set_option maxHeartbeats 2000000 in
theorem val3_v125 : val3 V0 (no_index (Proc.devRef .tc main_v125)) = val_main_v125 (V0 (Proc.devRef .tc main_arg0)) := by
  unfold val3; simp only [w3]; after_results_simp
  simp only [val2_arg0, val2_v63]; rfl

end Cert.ReferenceIdeal.HandRun

end
-- ==== Proof.RefRun.lean ====
/-
  The reference's run, read over its stages. The reference is a straight line of 131 host operations. They are cut
  here into five stretches, before each joining of pieces: the 64 operations that make the constant column and the
  sixteen pieces of the products of two; the joining of those pieces; the 62 operations that make the sixteen pieces
  of the products of three from the input and the joined products of two; the joining of the products of three; and
  the last three (the joining of the whole table, the contraction with the weights, the sum with the input).
  After each stretch every value still needed is the stage function of the input array that the operation computes,
  whatever the contents at launch; so the result ends at the last stage of the two argument arrays, and the
  arguments, which no operation writes, are kept.
-/
import proofs.«111983_j33603824124566_1_alg».proof.Proof.RefRunC

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Ops Cert.ReferenceIdeal.Stages

variable {F : FTy → Type} [FloatOps F]

variable (V0 : Valuation τ sig (Elt F))

/-! ## After the joining of the products of three -/

def val4 : Valuation τ sig (Elt F) := after w4 (val3 V0)
/-- A reference window 4 does not write keeps its contents through it. -/
theorem val4_keep (r : Ref sig .tc) (h : r ∉ w4_W) : val4 V0 (Proc.devRef .tc r) = val3 V0 (Proc.devRef .tc r) :=
  after_of_writes_sub w4 _ w4_writes h
theorem val4_arg0 : val4 V0 (no_index (Proc.devRef .tc main_arg0)) = V0 (Proc.devRef .tc main_arg0) :=
  (val4_keep V0 main_arg0 (by decide)).trans (val3_arg0 V0)
theorem val4_arg1 : val4 V0 (no_index (Proc.devRef .tc main_arg1)) = V0 (Proc.devRef .tc main_arg1) :=
  (val4_keep V0 main_arg1 (by decide)).trans (val3_arg1 V0)
theorem val4_v0 : val4 V0 (no_index (Proc.devRef .tc main_v0)) = val_main_v0 :=
  (val4_keep V0 main_v0 (by decide)).trans (val3_v0 V0)
theorem val4_v63 : val4 V0 (no_index (Proc.devRef .tc main_v63)) = val_main_v63 (V0 (Proc.devRef .tc main_arg0)) :=
  (val4_keep V0 main_v63 (by decide)).trans (val3_v63 V0)
set_option maxHeartbeats 2000000 in
theorem val4_v126 : val4 V0 (no_index (Proc.devRef .tc main_v126)) = val_main_v126 (V0 (Proc.devRef .tc main_arg0)) := by
  unfold val4; simp only [w4]; after_results_simp
  dsimp only [Matrix.cons_val]
  rw [val3_v66 V0, val3_v70 V0, val3_v74 V0, val3_v78 V0, val3_v82 V0, val3_v86 V0, val3_v90 V0, val3_v94 V0, val3_v98 V0, val3_v102 V0, val3_v106 V0, val3_v110 V0, val3_v114 V0, val3_v118 V0, val3_v122 V0, val3_v125 V0]
  rfl

/-! ## After the last stretch -/

def val5 : Valuation τ sig (Elt F) := after w5 (val4 V0)
/-- A reference window 5 does not write keeps its contents through it. -/
theorem val5_keep (r : Ref sig .tc) (h : r ∉ w5_W) : val5 V0 (Proc.devRef .tc r) = val4 V0 (Proc.devRef .tc r) :=
  after_of_writes_sub w5 _ w5_writes h
theorem val5_arg0 : val5 V0 (no_index (Proc.devRef .tc main_arg0)) = V0 (Proc.devRef .tc main_arg0) :=
  (val5_keep V0 main_arg0 (by decide)).trans (val4_arg0 V0)
theorem val5_arg1 : val5 V0 (no_index (Proc.devRef .tc main_arg1)) = V0 (Proc.devRef .tc main_arg1) :=
  (val5_keep V0 main_arg1 (by decide)).trans (val4_arg1 V0)
set_option maxHeartbeats 2000000 in
theorem val5_v129 : val5 V0 (no_index (Proc.devRef .tc main_v129)) = val_main_v129 (V0 (Proc.devRef .tc main_arg0)) (V0 (Proc.devRef .tc main_arg1)) := by
  unfold val5; simp only [w5]; after_results_simp
  dsimp only [Matrix.cons_val]
  rw [val4_arg0 V0, val4_arg1 V0, val4_v0 V0, val4_v63 V0, val4_v126 V0]
  rfl

/-! ## The whole line -/

theorem after_ops : after ops V0 = val5 V0 := by
  rw [ops_eq, after_append, after_append, after_append, after_append]; rfl

/-- On every device, from any memory with zero counters: every weakly fair execution of the reference terminates
    with its result at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129)
        = val_main_v129 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v129).trans (by rw [after_ops]; exact val5_v129 _),
      (h c main_arg0).trans (by rw [after_ops]; exact val5_arg0 _),
      (h c main_arg1).trans (by rw [after_ops]; exact val5_arg1 _)⟩)
    (run_seq scopedRefs_eq scopedSems_eq defs main (fun _ => ops) main_eq (fun _ => ops_sub) m ρ (fun _ => ops_fresh))

end Cert.ReferenceIdeal.HandRun

end
-- ==== Proof.lean ====
/-
  The kernel and its reference both compute, for every row x of 16 entries, x + poly(x) W, where poly(x) is
  the row of the 969 monomials of degree at most three in the entries of x (the constant, the entries, the
  products of two, the products of three, in the order both programs build them) and W is the 969 by 16 matrix of
  weights. The kernel does it 2048 rows at a time over a grid of 128 points; the reference over all 262144 rows at
  once. On the extended reals the two results are equal entry by entry:
    * every operation that builds poly acts row by row, so a tile's table is the array's table on the tile's
      rows (Proof/LibRowWise.lean, Proof/TableRows.lean);
    * the kernel's product into a zero accumulator and the host's contraction are the same sum over the 969
      monomials (Proof/KernelTile.lean, Proof/TileValue.lean);
    * the 128 tiles' row ranges cover the output, so the output array ends as the reference's result
      (Proof/Cover.lean).
  No law of the extended reals beyond reading both sides as the same sum of the same products is used, so the
  finiteness of the inputs is not needed. The two kernel programs' frames are the generated ones; the reference's
  is its run with the result dropped (Proof/RefRun.lean and the three modules before it: the line of 131 host
  operations read stretch by stretch over its stages); the kernel's idealization rewrote nothing.
-/
import proofs.«111983_j33603824124566_1_alg».proof.Defs
import proofs.«111983_j33603824124566_1_alg».proof.Proof.Gen.Kernel
import proofs.«111983_j33603824124566_1_alg».proof.Proof.Gen.Kernel.Skeleton
import proofs.«111983_j33603824124566_1_alg».proof.Proof.Gen.Kernel.Launch
import proofs.«111983_j33603824124566_1_alg».proof.Proof.Gen.Kernel.Points
import proofs.«111983_j33603824124566_1_alg».proof.Proof.Gen.Kernel.Frame
import proofs.«111983_j33603824124566_1_alg».proof.Proof.Gen.KernelIdeal
import proofs.«111983_j33603824124566_1_alg».proof.Proof.Gen.KernelIdeal.Skeleton
import proofs.«111983_j33603824124566_1_alg».proof.Proof.Gen.KernelIdeal.Launch
import proofs.«111983_j33603824124566_1_alg».proof.Proof.Gen.KernelIdeal.Points
import proofs.«111983_j33603824124566_1_alg».proof.Proof.Gen.KernelIdeal.Frame
import proofs.«111983_j33603824124566_1_alg».proof.Proof.Gen.ReferenceIdeal
import proofs.«111983_j33603824124566_1_alg».proof.Proof.Gen.Pre_finite_inputs
import proofs.«111983_j33603824124566_1_alg».proof.Proof.Gen.KernelIdeal.Value
import proofs.«111983_j33603824124566_1_alg».proof.Proof.Cover
import proofs.«111983_j33603824124566_1_alg».proof.Proof.TileValue
import proofs.«111983_j33603824124566_1_alg».proof.Proof.RefRun
import Idealize.ShloMosaic.Adequacy
import Idealize.ShloMosaic.Init

noncomputable section

namespace Cert.Proof

open Idealize.ShloMosaic Idealize.ShloMosaic.TcCoe Idealize.SL.Sem

/-- The reference's result as a function of the two argument arrays. -/
abbrev result (x : Vec Ideal Cert.ReferenceIdeal.S262144x16 .f32) (W : Vec Ideal Cert.ReferenceIdeal.S969x16 .f32) :
    Vec Ideal Cert.ReferenceIdeal.S262144x16 .f32 :=
  Cert.ReferenceIdeal.Stages.val_main_v129 (F := Ideal) x W

/-- The kernel's run ends with the output array at the reference's result of the kernel's own arguments: every
    tile's stored entry is the result's entry on the tile's rows, and the tiles cover the array. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c : Thread Cert.KernelIdeal.nD Cert.KernelIdeal.τ).loc Cert.KernelIdeal.main_v0)
          = result (m ((c : Thread Cert.KernelIdeal.nD Cert.KernelIdeal.τ).loc Cert.KernelIdeal.main_arg0))
              (m ((c : Thread Cert.KernelIdeal.nD Cert.KernelIdeal.τ).loc Cert.KernelIdeal.main_arg1))
        ∧ r.2.mem ((c : Thread Cert.KernelIdeal.nD Cert.KernelIdeal.τ).loc Cert.KernelIdeal.main_arg0)
          = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
          = m ((c : Thread Cert.KernelIdeal.nD Cert.KernelIdeal.τ).loc Cert.KernelIdeal.main_arg1) :=
  Cert.Cover.run_of m ρ
    (fun c => result (m ((c : Thread Cert.KernelIdeal.nD Cert.KernelIdeal.τ).loc Cert.KernelIdeal.main_arg0))
      (m ((c : Thread Cert.KernelIdeal.nD Cert.KernelIdeal.τ).loc Cert.KernelIdeal.main_arg1)))
    (fun c t p q => Cert.TileValue.tile_eq _ _ _ _ p ⟨t.val * 2048 + p.val, Cert.Cover.row_lt t p⟩ q
      (fun i => Cert.Cover.xtile_apply m c t p i) (Cert.Cover.wtile_eq m c t))

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- Both runs end at the same function of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
